-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v59)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v59) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v64) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x512 : Shape := ⟨2, ![100000, 512]⟩
abbrev S2x3200000 : Shape := ⟨2, ![2, 3200000]⟩
abbrev S3200000 : Shape := ⟨1, ![3200000]⟩
abbrev S512x16 : Shape := ⟨2, ![512, 16]⟩
abbrev S16 : Shape := ⟨1, ![16]⟩
abbrev S16x40 : Shape := ⟨2, ![16, 40]⟩
abbrev S40 : Shape := ⟨1, ![40]⟩
abbrev S_ : Shape := ⟨0, ![]⟩

class Facts : Prop where
  bcast_S_S100000x512 : S_.BroadcastsInDim S100000x512 (![] : Fin 0 → Fin S100000x512.rank)
  reducesTo_S100000x512_S_d0_1 : S100000x512.ReducesTo [0, 1] S_
  h_S_ : 0 < S_.numel
  bcast_S_S3200000 : S_.BroadcastsInDim S3200000 (![] : Fin 0 → Fin S3200000.rank)
  reducesTo_S3200000_S_d0 : S3200000.ReducesTo [0] S_
  bcast_S_S512x16 : S_.BroadcastsInDim S512x16 (![] : Fin 0 → Fin S512x16.rank)
  reducesTo_S512x16_S_d0_1 : S512x16.ReducesTo [0, 1] S_
  bcast_S_S16 : S_.BroadcastsInDim S16 (![] : Fin 0 → Fin S16.rank)
  reducesTo_S16_S_d0 : S16.ReducesTo [0] S_
  bcast_S_S16x40 : S_.BroadcastsInDim S16x40 (![] : Fin 0 → Fin S16x40.rank)
  reducesTo_S16x40_S_d0_1 : S16x40.ReducesTo [0, 1] S_
  bcast_S_S40 : S_.BroadcastsInDim S40 (![] : Fin 0 → Fin S40.rank)
  reducesTo_S40_S_d0 : S40.ReducesTo [0] S_

variable [Facts]

def fn_part1 {F : FTy → Type} [FloatOps F] (main_arg5 : FVec F S16x40 .f32) (main_arg6 : FVec F S40 .f32) (main_v13 : IVec S_ 1) (main_v16 : IVec S16 1) : IVec S_ 1 :=
  let main_c_5 : IVec S_ 1 := constantI S_ 1 1#1
  let main_v17 : IVec S_ 1 := (fun x v => Host.reduce IntOp.andi x v reducesTo_S16_S_d0 h_S_) main_v16 main_c_5
  let main_v18 : IVec S_ 1 := andi main_v13 main_v17
  let main_v19 : FVec F S16x40 .f32 := Host.absf main_arg5
  let main_cst_6 : FVec F S_ .f32 := constant S_ .f32 0x7F800000#32
  let main_v20 : FVec F S16x40 .f32 := broadcastInDim S16x40 ![] bcast_S_S16x40 main_cst_6
  let main_v21 : IVec S16x40 1 := cmpf .olt main_v19 main_v20
  let main_c_7 : IVec S_ 1 := constantI S_ 1 1#1
  let main_v22 : IVec S_ 1 := (fun x v => Host.reduce IntOp.andi x v reducesTo_S16x40_S_d0_1 h_S_) main_v21 main_c_7
  let main_v23 : IVec S_ 1 := andi main_v18 main_v22
  let main_v24 : FVec F S40 .f32 := Host.absf main_arg6
  let main_cst_8 : FVec F S_ .f32 := constant S_ .f32 0x7F800000#32
  let main_v25 : FVec F S40 .f32 := broadcastInDim S40 ![] bcast_S_S40 main_cst_8
  let main_v26 : IVec S40 1 := cmpf .olt main_v24 main_v25
  let main_c_9 : IVec S_ 1 := constantI S_ 1 1#1
  let main_v27 : IVec S_ 1 := (fun x v => Host.reduce IntOp.andi x v reducesTo_S40_S_d0 h_S_) main_v26 main_c_9
  let main_v28 : IVec S_ 1 := andi main_v23 main_v27
  main_v28

def fn {F : FTy → Type} [FloatOps F] (main_arg0 : FVec F S100000x512 .f32) (main_arg1 : IVec S2x3200000 32) (main_arg2 : FVec F S3200000 .f32) (main_arg3 : FVec F S512x16 .f32) (main_arg4 : FVec F S16 .f32) (main_arg5 : FVec F S16x40 .f32) (main_arg6 : FVec F S40 .f32) : IVec S_ 1 :=
  let main_v0 : FVec F S100000x512 .f32 := Host.absf main_arg0
  let main_cst : FVec F S_ .f32 := constant S_ .f32 0x7F800000#32
  let main_v1 : FVec F S100000x512 .f32 := broadcastInDim S100000x512 ![] bcast_S_S100000x512 main_cst
  let main_v2 : IVec S100000x512 1 := cmpf .olt main_v0 main_v1
  let main_c : IVec S_ 1 := constantI S_ 1 1#1
  let main_v3 : IVec S_ 1 := (fun x v => Host.reduce IntOp.andi x v reducesTo_S100000x512_S_d0_1 h_S_) main_v2 main_c
  let main_v4 : FVec F S3200000 .f32 := Host.absf main_arg2
  let main_cst_0 : FVec F S_ .f32 := constant S_ .f32 0x7F800000#32
  let main_v5 : FVec F S3200000 .f32 := broadcastInDim S3200000 ![] bcast_S_S3200000 main_cst_0
  let main_v6 : IVec S3200000 1 := cmpf .olt main_v4 main_v5
  let main_c_1 : IVec S_ 1 := constantI S_ 1 1#1
  let main_v7 : IVec S_ 1 := (fun x v => Host.reduce IntOp.andi x v reducesTo_S3200000_S_d0 h_S_) main_v6 main_c_1
  let main_v8 : IVec S_ 1 := andi main_v3 main_v7
  let main_v9 : FVec F S512x16 .f32 := Host.absf main_arg3
  let main_cst_2 : FVec F S_ .f32 := constant S_ .f32 0x7F800000#32
  let main_v10 : FVec F S512x16 .f32 := broadcastInDim S512x16 ![] bcast_S_S512x16 main_cst_2
  let main_v11 : IVec S512x16 1 := cmpf .olt main_v9 main_v10
  let main_c_3 : IVec S_ 1 := constantI S_ 1 1#1
  let main_v12 : IVec S_ 1 := (fun x v => Host.reduce IntOp.andi x v reducesTo_S512x16_S_d0_1 h_S_) main_v11 main_c_3
  let main_v13 : IVec S_ 1 := andi main_v8 main_v12
  let main_v14 : FVec F S16 .f32 := Host.absf main_arg4
  let main_cst_4 : FVec F S_ .f32 := constant S_ .f32 0x7F800000#32
  let main_v15 : FVec F S16 .f32 := broadcastInDim S16 ![] bcast_S_S16 main_cst_4
  let main_v16 : IVec S16 1 := cmpf .olt main_v14 main_v15
  fn_part1 (F := F) main_arg5 main_arg6 main_v13 main_v16
-- ==== Kernel.lean ====
abbrev S100000x512 : Shape := ⟨2, ![100000, 512]⟩
abbrev S2x3200000 : Shape := ⟨2, ![2, 3200000]⟩
abbrev S3200000 : Shape := ⟨1, ![3200000]⟩
abbrev S512x16 : Shape := ⟨2, ![512, 16]⟩
abbrev S16 : Shape := ⟨1, ![16]⟩
abbrev S16x40 : Shape := ⟨2, ![16, 40]⟩
abbrev S40 : Shape := ⟨1, ![40]⟩
abbrev S1x3200000 : Shape := ⟨2, ![1, 3200000]⟩
abbrev S_ : Shape := ⟨0, ![]⟩
abbrev S100000 : Shape := ⟨1, ![100000]⟩
abbrev S3200000x1 : Shape := ⟨2, ![3200000, 1]⟩
abbrev S100000x16 : Shape := ⟨2, ![100000, 16]⟩
abbrev S2000x512 : Shape := ⟨2, ![2000, 512]⟩
abbrev S2000x16 : Shape := ⟨2, ![2000, 16]⟩
abbrev S3200000x16 : Shape := ⟨2, ![3200000, 16]⟩
abbrev S1x16 : Shape := ⟨2, ![1, 16]⟩
abbrev S100000x40 : Shape := ⟨2, ![100000, 40]⟩
abbrev S2000x40 : Shape := ⟨2, ![2000, 40]⟩
abbrev S3200000x40 : Shape := ⟨2, ![3200000, 40]⟩
abbrev S1x40 : Shape := ⟨2, ![1, 40]⟩
abbrev S2000 : Shape := ⟨1, ![2000]⟩
abbrev S2000x1 : Shape := ⟨2, ![2000, 1]⟩

abbrev nBuf : Space → Nat
  | .hbm => 83
  | .vmem => 16
  | .smem => 0
  | _ => 0

abbrev bufTy : (tb : Table) → Fin (tcTables nBuf tb) → BufTy
  | .hbm, ⟨0, _⟩ => ⟨S100000x512, .f32⟩
  | .hbm, ⟨1, _⟩ => ⟨S2x3200000, .i32⟩
  | .hbm, ⟨2, _⟩ => ⟨S3200000, .f32⟩
  | .hbm, ⟨3, _⟩ => ⟨S512x16, .f32⟩
  | .hbm, ⟨4, _⟩ => ⟨S16, .f32⟩
  | .hbm, ⟨5, _⟩ => ⟨S16x40, .f32⟩
  | .hbm, ⟨6, _⟩ => ⟨S40, .f32⟩
  | .hbm, ⟨7, _⟩ => ⟨S1x3200000, .i32⟩
  | .hbm, ⟨8, _⟩ => ⟨S3200000, .i32⟩
  | .hbm, ⟨9, _⟩ => ⟨S1x3200000, .i32⟩
  | .hbm, ⟨10, _⟩ => ⟨S3200000, .i32⟩
  | .hbm, ⟨11, _⟩ => ⟨S_, .f32⟩
  | .hbm, ⟨12, _⟩ => ⟨S100000, .f32⟩
  | .hbm, ⟨13, _⟩ => ⟨S3200000x1, .i32⟩
  | .hbm, ⟨14, _⟩ => ⟨S100000, .f32⟩
  | .hbm, ⟨15, _⟩ => ⟨S_, .f32⟩
  | .hbm, ⟨16, _⟩ => ⟨S100000, .f32⟩
  | .hbm, ⟨17, _⟩ => ⟨S100000, .i1⟩
  | .hbm, ⟨18, _⟩ => ⟨S_, .f32⟩
  | .hbm, ⟨19, _⟩ => ⟨S100000, .f32⟩
  | .hbm, ⟨20, _⟩ => ⟨S100000, .f32⟩
  | .hbm, ⟨21, _⟩ => ⟨S100000, .f32⟩
  | .hbm, ⟨22, _⟩ => ⟨S_, .f32⟩
  | .hbm, ⟨23, _⟩ => ⟨S_, .f32⟩
  | .hbm, ⟨24, _⟩ => ⟨S100000, .f32⟩
  | .hbm, ⟨25, _⟩ => ⟨S100000, .f32⟩
  | .hbm, ⟨26, _⟩ => ⟨S_, .i32⟩
  | .hbm, ⟨27, _⟩ => ⟨S3200000, .i32⟩
  | .hbm, ⟨28, _⟩ => ⟨S3200000, .i1⟩
  | .hbm, ⟨29, _⟩ => ⟨S_, .i32⟩
  | .hbm, ⟨30, _⟩ => ⟨S3200000, .i32⟩
  | .hbm, ⟨31, _⟩ => ⟨S3200000, .i32⟩
  | .hbm, ⟨32, _⟩ => ⟨S3200000, .i32⟩
  | .hbm, ⟨33, _⟩ => ⟨S3200000x1, .i32⟩
  | .hbm, ⟨34, _⟩ => ⟨S3200000, .f32⟩
  | .hbm, ⟨35, _⟩ => ⟨S3200000, .f32⟩
  | .hbm, ⟨36, _⟩ => ⟨S_, .i32⟩
  | .hbm, ⟨37, _⟩ => ⟨S3200000, .i32⟩
  | .hbm, ⟨38, _⟩ => ⟨S3200000, .i1⟩
  | .hbm, ⟨39, _⟩ => ⟨S_, .i32⟩
  | .hbm, ⟨40, _⟩ => ⟨S3200000, .i32⟩
  | .hbm, ⟨41, _⟩ => ⟨S3200000, .i32⟩
  | .hbm, ⟨42, _⟩ => ⟨S3200000, .i32⟩
  | .hbm, ⟨43, _⟩ => ⟨S3200000x1, .i32⟩
  | .hbm, ⟨44, _⟩ => ⟨S3200000, .f32⟩
  | .hbm, ⟨45, _⟩ => ⟨S3200000, .f32⟩
  | .hbm, ⟨46, _⟩ => ⟨S100000x16, .f32⟩
  | .hbm, ⟨47, _⟩ => ⟨S3200000x1, .f32⟩
  | .hbm, ⟨48, _⟩ => ⟨S_, .i32⟩
  | .hbm, ⟨49, _⟩ => ⟨S3200000, .i32⟩
  | .hbm, ⟨50, _⟩ => ⟨S3200000, .i1⟩
  | .hbm, ⟨51, _⟩ => ⟨S_, .i32⟩
  | .hbm, ⟨52, _⟩ => ⟨S3200000, .i32⟩
  | .hbm, ⟨53, _⟩ => ⟨S3200000, .i32⟩
  | .hbm, ⟨54, _⟩ => ⟨S3200000, .i32⟩
  | .hbm, ⟨55, _⟩ => ⟨S3200000x1, .i32⟩
  | .hbm, ⟨56, _⟩ => ⟨S3200000x16, .f32⟩
  | .hbm, ⟨57, _⟩ => ⟨S3200000x16, .f32⟩
  | .hbm, ⟨58, _⟩ => ⟨S3200000x16, .f32⟩
  | .hbm, ⟨59, _⟩ => ⟨S_, .f32⟩
  | .hbm, ⟨60, _⟩ => ⟨S100000x16, .f32⟩
  | .hbm, ⟨61, _⟩ => ⟨S3200000x1, .i32⟩
  | .hbm, ⟨62, _⟩ => ⟨S100000x16, .f32⟩
  | .hbm, ⟨63, _⟩ => ⟨S1x16, .f32⟩
  | .hbm, ⟨64, _⟩ => ⟨S100000x40, .f32⟩
  | .hbm, ⟨65, _⟩ => ⟨S3200000x1, .f32⟩
  | .hbm, ⟨66, _⟩ => ⟨S_, .i32⟩
  | .hbm, ⟨67, _⟩ => ⟨S3200000, .i32⟩
  | .hbm, ⟨68, _⟩ => ⟨S3200000, .i1⟩
  | .hbm, ⟨69, _⟩ => ⟨S_, .i32⟩
  | .hbm, ⟨70, _⟩ => ⟨S3200000, .i32⟩
  | .hbm, ⟨71, _⟩ => ⟨S3200000, .i32⟩
  | .hbm, ⟨72, _⟩ => ⟨S3200000, .i32⟩
  | .hbm, ⟨73, _⟩ => ⟨S3200000x1, .i32⟩
  | .hbm, ⟨74, _⟩ => ⟨S3200000x40, .f32⟩
  | .hbm, ⟨75, _⟩ => ⟨S3200000x40, .f32⟩
  | .hbm, ⟨76, _⟩ => ⟨S3200000x40, .f32⟩
  | .hbm, ⟨77, _⟩ => ⟨S_, .f32⟩
  | .hbm, ⟨78, _⟩ => ⟨S100000x40, .f32⟩
  | .hbm, ⟨79, _⟩ => ⟨S3200000x1, .i32⟩
  | .hbm, ⟨80, _⟩ => ⟨S100000x40, .f32⟩
  | .hbm, ⟨81, _⟩ => ⟨S1x40, .f32⟩
  | .hbm, ⟨82, _⟩ => ⟨S100000x40, .f32⟩
  | .local _ .vmem, ⟨0, _⟩ => ⟨S2000x512, .f32⟩
  | .local _ .vmem, ⟨1, _⟩ => ⟨S2000x512, .f32⟩
  | .local _ .vmem, ⟨2, _⟩ => ⟨S512x16, .f32⟩
  | .local _ .vmem, ⟨3, _⟩ => ⟨S2000x16, .f32⟩
  | .local _ .vmem, ⟨4, _⟩ => ⟨S2000x16, .f32⟩
  | .local _ .vmem, ⟨5, _⟩ => ⟨S2000x16, .f32⟩
  | .local _ .vmem, ⟨6, _⟩ => ⟨S2000x16, .f32⟩
  | .local _ .vmem, ⟨7, _⟩ => ⟨S1x16, .f32⟩
  | .local _ .vmem, ⟨8, _⟩ => ⟨S16x40, .f32⟩
  | .local _ .vmem, ⟨9, _⟩ => ⟨S2000x40, .f32⟩
  | .local _ .vmem, ⟨10, _⟩ => ⟨S2000x40, .f32⟩
  | .local _ .vmem, ⟨11, _⟩ => ⟨S2000x40, .f32⟩
  | .local _ .vmem, ⟨12, _⟩ => ⟨S2000x40, .f32⟩
  | .local _ .vmem, ⟨13, _⟩ => ⟨S1x40, .f32⟩
  | .local _ .vmem, ⟨14, _⟩ => ⟨S2000x40, .f32⟩
  | .local _ .vmem, ⟨15, _⟩ => ⟨S2000x40, .f32⟩
  | _, _ => ⟨S100000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_0 : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_2 : Ref sig .tc := ⟨.hbm, 22, rfl⟩
abbrev main_call0_v0 : Ref sig .tc := ⟨.hbm, 23, rfl⟩
abbrev main_call0_v1 : Ref sig .tc := ⟨.hbm, 24, rfl⟩
abbrev main_v12 : Ref sig .tc := ⟨.hbm, 25, rfl⟩
abbrev main_c : Ref sig .tc := ⟨.hbm, 26, rfl⟩
abbrev main_v13 : Ref sig .tc := ⟨.hbm, 27, rfl⟩
abbrev main_v14 : Ref sig .tc := ⟨.hbm, 28, rfl⟩
abbrev main_c_3 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_c_4 : Ref sig .tc := ⟨.hbm, 36, rfl⟩
abbrev main_v21 : Ref sig .tc := ⟨.hbm, 37, rfl⟩
abbrev main_v22 : Ref sig .tc := ⟨.hbm, 38, rfl⟩
abbrev main_c_5 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_c_6 : Ref sig .tc := ⟨.hbm, 48, rfl⟩
abbrev main_v31 : Ref sig .tc := ⟨.hbm, 49, rfl⟩
abbrev main_v32 : Ref sig .tc := ⟨.hbm, 50, rfl⟩
abbrev main_c_7 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_cst_8 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_c_9 : Ref sig .tc := ⟨.hbm, 66, rfl⟩
abbrev main_v46 : Ref sig .tc := ⟨.hbm, 67, rfl⟩
abbrev main_v47 : Ref sig .tc := ⟨.hbm, 68, rfl⟩
abbrev main_c_10 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_cst_11 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg2_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem2_1 : DmaSem sig := 15

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x16 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S16x40 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S2000x40 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x40 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x40 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S2000x40 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  bcast_S_S100000 : S_.BroadcastsInDim S100000 (![] : Fin 0 → Fin S100000.rank)
  bcast_S3200000_S3200000x1_0 : S3200000.BroadcastsInDim S3200000x1 (![0] : Fin 1 → Fin S3200000x1.rank)
  bcast_S_S3200000 : S_.BroadcastsInDim S3200000 (![] : Fin 0 → Fin S3200000.rank)
  inb_S2000x512_S2000x512_0_0 : ∀ a, (![0, 0] : Fin 2 → Nat) a + S2000x512.size a ≤ S2000x512.size a
  h_S2000x512 : 0 < S2000x512.numel
  bitsLt_bf16_f32 : FTy.bits .bf16 < FTy.bits .f32
  inb_S512x16_S512x16_0_0 : ∀ a, (![0, 0] : Fin 2 → Nat) a + S512x16.size a ≤ S512x16.size a
  h_S512x16 : 0 < S512x16.numel
  inb_S2000x16_S2000x16_0_0 : ∀ a, (![0, 0] : Fin 2 → Nat) a + S2000x16.size a ≤ S2000x16.size a
  h_S2000x16 : 0 < S2000x16.numel
  bcast_S3200000x1_S3200000x16_0_1 : S3200000x1.BroadcastsInDim S3200000x16 (![0, 1] : Fin 2 → Fin S3200000x16.rank)
  bcast_S_S100000x16 : S_.BroadcastsInDim S100000x16 (![] : Fin 0 → Fin S100000x16.rank)
  shapeCasts_S16_S1x16 : S16.ShapeCasts S1x16
  shapeCasts_S2000x16_S2000x16 : S2000x16.ShapeCasts S2000x16
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S2000x16 : S1x16.Broadcasts S2000x16
  inb_S16x40_S16x40_0_0 : ∀ a, (![0, 0] : Fin 2 → Nat) a + S16x40.size a ≤ S16x40.size a
  h_S16x40 : 0 < S16x40.numel
  inb_S2000x40_S2000x40_0_0 : ∀ a, (![0, 0] : Fin 2 → Nat) a + S2000x40.size a ≤ S2000x40.size a
  h_S2000x40 : 0 < S2000x40.numel
  bcast_S3200000x1_S3200000x40_0_1 : S3200000x1.BroadcastsInDim S3200000x40 (![0, 1] : Fin 2 → Fin S3200000x40.rank)
  bcast_S_S100000x40 : S_.BroadcastsInDim S100000x40 (![] : Fin 0 → Fin S100000x40.rank)
  shapeCasts_S40_S1x40 : S40.ShapeCasts S1x40
  shapeCasts_S2000x40_S2000x40 : S2000x40.ShapeCasts S2000x40
  inb_S1x40_S1x40_0_0 : ∀ a, (![0, 0] : Fin 2 → Nat) a + S1x40.size a ≤ S1x40.size a
  h_S1x40 : 0 < S1x40.numel
  shapeCasts_S1x40_S1x40 : S1x40.ShapeCasts S1x40
  broadcasts_S1x40_S2000x40 : S1x40.Broadcasts S2000x40
  reduces_S2000x40_S2000 : S2000x40.Reduces [1] S2000
  shapeCasts_S2000_S2000x1 : S2000.ShapeCasts S2000x1
  broadcasts_S2000x1_S2000x40 : S2000x1.Broadcasts S2000x40
  scatter_S100000_S3200000x1_S3200000_n_0_0_1_wf : ScatterDims.WF S100000 S3200000x1 S3200000 [] [0] [0] 1
  gather_S100000_S3200000x1_S3200000_n_0_n_n_0_1_1_wf : GatherDims.WF S100000 S3200000x1 S3200000 [] [0] [] [0] [] 1 ![1]
  dot_S2000x512_S512x16_S2000x16_1_0_0_1_n_n_wf : DotDims.WF S2000x512 S512x16 S2000x16 [1] [0] [0] [1] [] []
  gather_S100000x16_S3200000x1_S3200000x16_1_0_n_n_0_1_116_wf : GatherDims.WF S100000x16 S3200000x1 S3200000x16 [1] [0] [] [0] [] 1 ![1, 16]
  scatter_S100000x16_S3200000x1_S3200000x16_1_0_0_1_wf : ScatterDims.WF S100000x16 S3200000x1 S3200000x16 [1] [0] [0] 1
  dot_S2000x16_S16x40_S2000x40_1_0_0_1_n_n_wf : DotDims.WF S2000x16 S16x40 S2000x40 [1] [0] [0] [1] [] []
  gather_S100000x40_S3200000x1_S3200000x40_1_0_n_n_0_1_140_wf : GatherDims.WF S100000x40 S3200000x1 S3200000x40 [1] [0] [] [0] [] 1 ![1, 40]
  scatter_S100000x40_S3200000x1_S3200000x40_1_0_0_1_wf : ScatterDims.WF S100000x40 S3200000x1 S3200000x40 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x512.size a ≤ S100000x512.size a
  hwx0_0 : ∀ i : grid0.Coords, EltTy.bits .f32 = 32 ∨ (Rect.block (s := S100000x512) S2000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x16.size a ≤ S512x16.size a
  hwx0_1 : ∀ i : grid0.Coords, EltTy.bits .f32 = 32 ∨ (Rect.block (s := S512x16) S512x16.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x16.size a ≤ S100000x16.size a
  hwx0_2 : ∀ i : grid0.Coords, EltTy.bits .f32 = 32 ∨ (Rect.block (s := S100000x16) S2000x16.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x16.size a ≤ S100000x16.size a
  hwx1_0 : ∀ i : grid1.Coords, EltTy.bits .f32 = 32 ∨ (Rect.block (s := S100000x16) S2000x16.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x16.size a ≤ S1x16.size a
  hwx1_1 : ∀ i : grid1.Coords, EltTy.bits .f32 = 32 ∨ (Rect.block (s := S1x16) S1x16.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S16x40.size a ≤ S16x40.size a
  hwx1_2 : ∀ i : grid1.Coords, EltTy.bits .f32 = 32 ∨ (Rect.block (s := S16x40) S16x40.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2000x40.size a ≤ S100000x40.size a
  hwx1_3 : ∀ i : grid1.Coords, EltTy.bits .f32 = 32 ∨ (Rect.block (s := S100000x40) S2000x40.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x40.size a ≤ S100000x40.size a
  hwx2_0 : ∀ i : grid2.Coords, EltTy.bits .f32 = 32 ∨ (Rect.block (s := S100000x40) S2000x40.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x40.size a ≤ S1x40.size a
  hwx2_1 : ∀ i : grid2.Coords, EltTy.bits .f32 = 32 ∨ (Rect.block (s := S1x40) S1x40.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x40.size a ≤ S100000x40.size a
  hwx2_2 : ∀ i : grid2.Coords, EltTy.bits .f32 = 32 ∨ (Rect.block (s := S100000x40) S2000x40.size (cc2_transform_2 i) (hinb2_2 i)).WholeWords (EltTy.packing .f32)

variable [Facts₀]

def scatter_S100000_S3200000x1_S3200000_n_0_0_1 : ScatterDims S100000 S3200000x1 S3200000 where
  updateWindowDims := []
  insertedWindowDims := [0]
  scatterDimsToOperandDims := [0]
  indexVectorDim := 1
  wf := scatter_S100000_S3200000x1_S3200000_n_0_0_1_wf
def gather_S100000_S3200000x1_S3200000_n_0_n_n_0_1_1 : GatherDims S100000 S3200000x1 S3200000 where
  offsetDims := []
  collapsedSliceDims := [0]
  operandBatchingDims := []
  startIndicesBatchingDims := []
  startIndexMap := [0]
  indexVectorDim := 1
  sliceSizes := ![1]
  wf := gather_S100000_S3200000x1_S3200000_n_0_n_n_0_1_1_wf
def dot_S2000x512_S512x16_S2000x16_1_0_0_1_n_n : DotDims S2000x512 S512x16 S2000x16 where
  lhsContracting := [1]
  rhsContracting := [0]
  lhsNonContracting := [0]
  rhsNonContracting := [1]
  lhsBatch := []
  rhsBatch := []
  wf := dot_S2000x512_S512x16_S2000x16_1_0_0_1_n_n_wf
def gather_S100000x16_S3200000x1_S3200000x16_1_0_n_n_0_1_116 : GatherDims S100000x16 S3200000x1 S3200000x16 where
  offsetDims := [1]
  collapsedSliceDims := [0]
  operandBatchingDims := []
  startIndicesBatchingDims := []
  startIndexMap := [0]
  indexVectorDim := 1
  sliceSizes := ![1, 16]
  wf := gather_S100000x16_S3200000x1_S3200000x16_1_0_n_n_0_1_116_wf
def scatter_S100000x16_S3200000x1_S3200000x16_1_0_0_1 : ScatterDims S100000x16 S3200000x1 S3200000x16 where
  updateWindowDims := [1]
  insertedWindowDims := [0]
  scatterDimsToOperandDims := [0]
  indexVectorDim := 1
  wf := scatter_S100000x16_S3200000x1_S3200000x16_1_0_0_1_wf
def dot_S2000x16_S16x40_S2000x40_1_0_0_1_n_n : DotDims S2000x16 S16x40 S2000x40 where
  lhsContracting := [1]
  rhsContracting := [0]
  lhsNonContracting := [0]
  rhsNonContracting := [1]
  lhsBatch := []
  rhsBatch := []
  wf := dot_S2000x16_S16x40_S2000x40_1_0_0_1_n_n_wf
def gather_S100000x40_S3200000x1_S3200000x40_1_0_n_n_0_1_140 : GatherDims S100000x40 S3200000x1 S3200000x40 where
  offsetDims := [1]
  collapsedSliceDims := [0]
  operandBatchingDims := []
  startIndicesBatchingDims := []
  startIndexMap := [0]
  indexVectorDim := 1
  sliceSizes := ![1, 40]
  wf := gather_S100000x40_S3200000x1_S3200000x40_1_0_n_n_0_1_140_wf
def scatter_S100000x40_S3200000x1_S3200000x40_1_0_0_1 : ScatterDims S100000x40 S3200000x1 S3200000x40 where
  updateWindowDims := [1]
  insertedWindowDims := [0]
  scatterDimsToOperandDims := [0]
  indexVectorDim := 1
  wf := scatter_S100000x40_S3200000x1_S3200000x40_1_0_0_1_wf

abbrev win0_0 : Pipeline.Window sig grid0 :=
  Pipeline.Window.ofSpec (Memref.whole main_arg0) S2000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S512x16.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v29) S2000x16.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v42) S2000x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v43) S1x16.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S16x40.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v44) S2000x40.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v57) S2000x40.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v58) S1x40.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v59) S2000x40.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S100000x512 : Shape := ⟨2, ![100000, 512]⟩
abbrev S2x3200000 : Shape := ⟨2, ![2, 3200000]⟩
abbrev S3200000 : Shape := ⟨1, ![3200000]⟩
abbrev S512x16 : Shape := ⟨2, ![512, 16]⟩
abbrev S16 : Shape := ⟨1, ![16]⟩
abbrev S16x40 : Shape := ⟨2, ![16, 40]⟩
abbrev S40 : Shape := ⟨1, ![40]⟩
abbrev S1x3200000 : Shape := ⟨2, ![1, 3200000]⟩
abbrev S_ : Shape := ⟨0, ![]⟩
abbrev S100000 : Shape := ⟨1, ![100000]⟩
abbrev S3200000x1 : Shape := ⟨2, ![3200000, 1]⟩
abbrev S100000x16 : Shape := ⟨2, ![100000, 16]⟩
abbrev S3200000x16 : Shape := ⟨2, ![3200000, 16]⟩
abbrev S1x16 : Shape := ⟨2, ![1, 16]⟩
abbrev S100000x40 : Shape := ⟨2, ![100000, 40]⟩
abbrev S3200000x40 : Shape := ⟨2, ![3200000, 40]⟩
abbrev S1x40 : Shape := ⟨2, ![1, 40]⟩
abbrev S100000x1 : Shape := ⟨2, ![100000, 1]⟩

abbrev nBuf : Space → Nat
  | .hbm => 104
  | .vmem => 0
  | .smem => 0
  | _ => 0

abbrev bufTy : (tb : Table) → Fin (tcTables nBuf tb) → BufTy
  | .hbm, ⟨0, _⟩ => ⟨S100000x512, .f32⟩
  | .hbm, ⟨1, _⟩ => ⟨S2x3200000, .i32⟩
  | .hbm, ⟨2, _⟩ => ⟨S3200000, .f32⟩
  | .hbm, ⟨3, _⟩ => ⟨S512x16, .f32⟩
  | .hbm, ⟨4, _⟩ => ⟨S16, .f32⟩
  | .hbm, ⟨5, _⟩ => ⟨S16x40, .f32⟩
  | .hbm, ⟨6, _⟩ => ⟨S40, .f32⟩
  | .hbm, ⟨7, _⟩ => ⟨S1x3200000, .i32⟩
  | .hbm, ⟨8, _⟩ => ⟨S3200000, .i32⟩
  | .hbm, ⟨9, _⟩ => ⟨S1x3200000, .i32⟩
  | .hbm, ⟨10, _⟩ => ⟨S3200000, .i32⟩
  | .hbm, ⟨11, _⟩ => ⟨S_, .f32⟩
  | .hbm, ⟨12, _⟩ => ⟨S100000, .f32⟩
  | .hbm, ⟨13, _⟩ => ⟨S3200000x1, .i32⟩
  | .hbm, ⟨14, _⟩ => ⟨S100000, .f32⟩
  | .hbm, ⟨15, _⟩ => ⟨S_, .f32⟩
  | .hbm, ⟨16, _⟩ => ⟨S100000, .f32⟩
  | .hbm, ⟨17, _⟩ => ⟨S100000, .i1⟩
  | .hbm, ⟨18, _⟩ => ⟨S_, .f32⟩
  | .hbm, ⟨19, _⟩ => ⟨S100000, .f32⟩
  | .hbm, ⟨20, _⟩ => ⟨S100000, .f32⟩
  | .hbm, ⟨21, _⟩ => ⟨S100000, .f32⟩
  | .hbm, ⟨22, _⟩ => ⟨S_, .f32⟩
  | .hbm, ⟨23, _⟩ => ⟨S_, .f32⟩
  | .hbm, ⟨24, _⟩ => ⟨S100000, .f32⟩
  | .hbm, ⟨25, _⟩ => ⟨S100000, .f32⟩
  | .hbm, ⟨26, _⟩ => ⟨S_, .i32⟩
  | .hbm, ⟨27, _⟩ => ⟨S3200000, .i32⟩
  | .hbm, ⟨28, _⟩ => ⟨S3200000, .i1⟩
  | .hbm, ⟨29, _⟩ => ⟨S_, .i32⟩
  | .hbm, ⟨30, _⟩ => ⟨S3200000, .i32⟩
  | .hbm, ⟨31, _⟩ => ⟨S3200000, .i32⟩
  | .hbm, ⟨32, _⟩ => ⟨S3200000, .i32⟩
  | .hbm, ⟨33, _⟩ => ⟨S3200000x1, .i32⟩
  | .hbm, ⟨34, _⟩ => ⟨S3200000, .f32⟩
  | .hbm, ⟨35, _⟩ => ⟨S3200000, .f32⟩
  | .hbm, ⟨36, _⟩ => ⟨S_, .i32⟩
  | .hbm, ⟨37, _⟩ => ⟨S3200000, .i32⟩
  | .hbm, ⟨38, _⟩ => ⟨S3200000, .i1⟩
  | .hbm, ⟨39, _⟩ => ⟨S_, .i32⟩
  | .hbm, ⟨40, _⟩ => ⟨S3200000, .i32⟩
  | .hbm, ⟨41, _⟩ => ⟨S3200000, .i32⟩
  | .hbm, ⟨42, _⟩ => ⟨S3200000, .i32⟩
  | .hbm, ⟨43, _⟩ => ⟨S3200000x1, .i32⟩
  | .hbm, ⟨44, _⟩ => ⟨S3200000, .f32⟩
  | .hbm, ⟨45, _⟩ => ⟨S3200000, .f32⟩
  | .hbm, ⟨46, _⟩ => ⟨S100000x16, .f32⟩
  | .hbm, ⟨47, _⟩ => ⟨S3200000x1, .f32⟩
  | .hbm, ⟨48, _⟩ => ⟨S_, .i32⟩
  | .hbm, ⟨49, _⟩ => ⟨S3200000, .i32⟩
  | .hbm, ⟨50, _⟩ => ⟨S3200000, .i1⟩
  | .hbm, ⟨51, _⟩ => ⟨S_, .i32⟩
  | .hbm, ⟨52, _⟩ => ⟨S3200000, .i32⟩
  | .hbm, ⟨53, _⟩ => ⟨S3200000, .i32⟩
  | .hbm, ⟨54, _⟩ => ⟨S3200000, .i32⟩
  | .hbm, ⟨55, _⟩ => ⟨S3200000x1, .i32⟩
  | .hbm, ⟨56, _⟩ => ⟨S3200000x16, .f32⟩
  | .hbm, ⟨57, _⟩ => ⟨S3200000x16, .f32⟩
  | .hbm, ⟨58, _⟩ => ⟨S3200000x16, .f32⟩
  | .hbm, ⟨59, _⟩ => ⟨S_, .f32⟩
  | .hbm, ⟨60, _⟩ => ⟨S100000x16, .f32⟩
  | .hbm, ⟨61, _⟩ => ⟨S3200000x1, .i32⟩
  | .hbm, ⟨62, _⟩ => ⟨S100000x16, .f32⟩
  | .hbm, ⟨63, _⟩ => ⟨S1x16, .f32⟩
  | .hbm, ⟨64, _⟩ => ⟨S100000x16, .f32⟩
  | .hbm, ⟨65, _⟩ => ⟨S100000x16, .f32⟩
  | .hbm, ⟨66, _⟩ => ⟨S_, .f32⟩
  | .hbm, ⟨67, _⟩ => ⟨S100000x16, .f32⟩
  | .hbm, ⟨68, _⟩ => ⟨S100000x16, .f32⟩
  | .hbm, ⟨69, _⟩ => ⟨S100000x40, .f32⟩
  | .hbm, ⟨70, _⟩ => ⟨S3200000x1, .f32⟩
  | .hbm, ⟨71, _⟩ => ⟨S_, .i32⟩
  | .hbm, ⟨72, _⟩ => ⟨S3200000, .i32⟩
  | .hbm, ⟨73, _⟩ => ⟨S3200000, .i1⟩
  | .hbm, ⟨74, _⟩ => ⟨S_, .i32⟩
  | .hbm, ⟨75, _⟩ => ⟨S3200000, .i32⟩
  | .hbm, ⟨76, _⟩ => ⟨S3200000, .i32⟩
  | .hbm, ⟨77, _⟩ => ⟨S3200000, .i32⟩
  | .hbm, ⟨78, _⟩ => ⟨S3200000x1, .i32⟩
  | .hbm, ⟨79, _⟩ => ⟨S3200000x40, .f32⟩
  | .hbm, ⟨80, _⟩ => ⟨S3200000x40, .f32⟩
  | .hbm, ⟨81, _⟩ => ⟨S3200000x40, .f32⟩
  | .hbm, ⟨82, _⟩ => ⟨S_, .f32⟩
  | .hbm, ⟨83, _⟩ => ⟨S100000x40, .f32⟩
  | .hbm, ⟨84, _⟩ => ⟨S3200000x1, .i32⟩
  | .hbm, ⟨85, _⟩ => ⟨S100000x40, .f32⟩
  | .hbm, ⟨86, _⟩ => ⟨S1x40, .f32⟩
  | .hbm, ⟨87, _⟩ => ⟨S100000x40, .f32⟩
  | .hbm, ⟨88, _⟩ => ⟨S100000x40, .f32⟩
  | .hbm, ⟨89, _⟩ => ⟨S_, .f32⟩
  | .hbm, ⟨90, _⟩ => ⟨S100000, .f32⟩
  | .hbm, ⟨91, _⟩ => ⟨S_, .f32⟩
  | .hbm, ⟨92, _⟩ => ⟨S100000, .f32⟩
  | .hbm, ⟨93, _⟩ => ⟨S100000, .f32⟩
  | .hbm, ⟨94, _⟩ => ⟨S100000x1, .f32⟩
  | .hbm, ⟨95, _⟩ => ⟨S100000x40, .f32⟩
  | .hbm, ⟨96, _⟩ => ⟨S100000x40, .f32⟩
  | .hbm, ⟨97, _⟩ => ⟨S100000x40, .f32⟩
  | .hbm, ⟨98, _⟩ => ⟨S_, .f32⟩
  | .hbm, ⟨99, _⟩ => ⟨S100000, .f32⟩
  | .hbm, ⟨100, _⟩ => ⟨S100000x1, .f32⟩
  | .hbm, ⟨101, _⟩ => ⟨S100000x1, .f32⟩
  | .hbm, ⟨102, _⟩ => ⟨S100000x40, .f32⟩
  | .hbm, ⟨103, _⟩ => ⟨S100000x40, .f32⟩
  | _, _ => ⟨S100000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_0 : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_2 : Ref sig .tc := ⟨.hbm, 22, rfl⟩
abbrev main_call0_v0 : Ref sig .tc := ⟨.hbm, 23, rfl⟩
abbrev main_call0_v1 : Ref sig .tc := ⟨.hbm, 24, rfl⟩
abbrev main_v12 : Ref sig .tc := ⟨.hbm, 25, rfl⟩
abbrev main_c : Ref sig .tc := ⟨.hbm, 26, rfl⟩
abbrev main_v13 : Ref sig .tc := ⟨.hbm, 27, rfl⟩
abbrev main_v14 : Ref sig .tc := ⟨.hbm, 28, rfl⟩
abbrev main_c_3 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_c_4 : Ref sig .tc := ⟨.hbm, 36, rfl⟩
abbrev main_v21 : Ref sig .tc := ⟨.hbm, 37, rfl⟩
abbrev main_v22 : Ref sig .tc := ⟨.hbm, 38, rfl⟩
abbrev main_c_5 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_c_6 : Ref sig .tc := ⟨.hbm, 48, rfl⟩
abbrev main_v31 : Ref sig .tc := ⟨.hbm, 49, rfl⟩
abbrev main_v32 : Ref sig .tc := ⟨.hbm, 50, rfl⟩
abbrev main_c_7 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_cst_8 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_call1_cst : Ref sig .tc := ⟨.hbm, 66, rfl⟩
abbrev main_call1_v0 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_c_9 : Ref sig .tc := ⟨.hbm, 71, rfl⟩
abbrev main_v49 : Ref sig .tc := ⟨.hbm, 72, rfl⟩
abbrev main_v50 : Ref sig .tc := ⟨.hbm, 73, rfl⟩
abbrev main_c_10 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_cst_11 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_call2_cst : Ref sig .tc := ⟨.hbm, 89, rfl⟩
abbrev main_call2_v0 : Ref sig .tc := ⟨.hbm, 90, rfl⟩
abbrev main_call2_cst_0 : Ref sig .tc := ⟨.hbm, 91, rfl⟩
abbrev main_call2_v1 : Ref sig .tc := ⟨.hbm, 92, rfl⟩
abbrev main_call2_v2 : Ref sig .tc := ⟨.hbm, 93, rfl⟩
abbrev main_call2_v3 : Ref sig .tc := ⟨.hbm, 94, rfl⟩
abbrev main_call2_v4 : Ref sig .tc := ⟨.hbm, 95, rfl⟩
abbrev main_call2_v5 : Ref sig .tc := ⟨.hbm, 96, rfl⟩
abbrev main_call2_v6 : Ref sig .tc := ⟨.hbm, 97, rfl⟩
abbrev main_call2_cst_1 : Ref sig .tc := ⟨.hbm, 98, rfl⟩
abbrev main_call2_v7 : Ref sig .tc := ⟨.hbm, 99, rfl⟩
abbrev main_call2_v8 : Ref sig .tc := ⟨.hbm, 100, rfl⟩
abbrev main_call2_v9 : Ref sig .tc := ⟨.hbm, 101, rfl⟩
abbrev main_call2_v10 : Ref sig .tc := ⟨.hbm, 102, rfl⟩
abbrev main_v64 : Ref sig .tc := ⟨.hbm, 103, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  bcast_S_S100000 : S_.BroadcastsInDim S100000 (![] : Fin 0 → Fin S100000.rank)
  bcast_S3200000_S3200000x1_0 : S3200000.BroadcastsInDim S3200000x1 (![0] : Fin 1 → Fin S3200000x1.rank)
  bcast_S_S3200000 : S_.BroadcastsInDim S3200000 (![] : Fin 0 → Fin S3200000.rank)
  bcast_S3200000x1_S3200000x16_0_1 : S3200000x1.BroadcastsInDim S3200000x16 (![0, 1] : Fin 2 → Fin S3200000x16.rank)
  bcast_S_S100000x16 : S_.BroadcastsInDim S100000x16 (![] : Fin 0 → Fin S100000x16.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  bcast_S3200000x1_S3200000x40_0_1 : S3200000x1.BroadcastsInDim S3200000x40 (![0, 1] : Fin 2 → Fin S3200000x40.rank)
  bcast_S_S100000x40 : S_.BroadcastsInDim S100000x40 (![] : Fin 0 → Fin S100000x40.rank)
  bcast_S40_S1x40_1 : S40.BroadcastsInDim S1x40 (![1] : Fin 1 → Fin S1x40.rank)
  bcast_S1x40_S100000x40_0_1 : S1x40.BroadcastsInDim S100000x40 (![0, 1] : Fin 2 → Fin S100000x40.rank)
  reducesTo_S100000x40_S100000_d1 : S100000x40.ReducesTo [1] S100000
  h_S_ : 0 < S_.numel
  bcast_S100000_S100000x1_0 : S100000.BroadcastsInDim S100000x1 (![0] : Fin 1 → Fin S100000x1.rank)
  bcast_S100000x1_S100000x40_0_1 : S100000x1.BroadcastsInDim S100000x40 (![0, 1] : Fin 2 → Fin S100000x40.rank)
  scatter_S100000_S3200000x1_S3200000_n_0_0_1_wf : ScatterDims.WF S100000 S3200000x1 S3200000 [] [0] [0] 1
  gather_S100000_S3200000x1_S3200000_n_0_n_n_0_1_1_wf : GatherDims.WF S100000 S3200000x1 S3200000 [] [0] [] [0] [] 1 ![1]
  dot_S100000x512_S512x16_S100000x16_1_0_0_1_n_n_wf : DotDims.WF S100000x512 S512x16 S100000x16 [1] [0] [0] [1] [] []
  gather_S100000x16_S3200000x1_S3200000x16_1_0_n_n_0_1_116_wf : GatherDims.WF S100000x16 S3200000x1 S3200000x16 [1] [0] [] [0] [] 1 ![1, 16]
  scatter_S100000x16_S3200000x1_S3200000x16_1_0_0_1_wf : ScatterDims.WF S100000x16 S3200000x1 S3200000x16 [1] [0] [0] 1
  dot_S100000x16_S16x40_S100000x40_1_0_0_1_n_n_wf : DotDims.WF S100000x16 S16x40 S100000x40 [1] [0] [0] [1] [] []
  gather_S100000x40_S3200000x1_S3200000x40_1_0_n_n_0_1_140_wf : GatherDims.WF S100000x40 S3200000x1 S3200000x40 [1] [0] [] [0] [] 1 ![1, 40]
  scatter_S100000x40_S3200000x1_S3200000x40_1_0_0_1_wf : ScatterDims.WF S100000x40 S3200000x1 S3200000x40 [1] [0] [0] 1

variable [Facts₀]

def scatter_S100000_S3200000x1_S3200000_n_0_0_1 : ScatterDims S100000 S3200000x1 S3200000 where
  updateWindowDims := []
  insertedWindowDims := [0]
  scatterDimsToOperandDims := [0]
  indexVectorDim := 1
  wf := scatter_S100000_S3200000x1_S3200000_n_0_0_1_wf
def gather_S100000_S3200000x1_S3200000_n_0_n_n_0_1_1 : GatherDims S100000 S3200000x1 S3200000 where
  offsetDims := []
  collapsedSliceDims := [0]
  operandBatchingDims := []
  startIndicesBatchingDims := []
  startIndexMap := [0]
  indexVectorDim := 1
  sliceSizes := ![1]
  wf := gather_S100000_S3200000x1_S3200000_n_0_n_n_0_1_1_wf
def dot_S100000x512_S512x16_S100000x16_1_0_0_1_n_n : DotDims S100000x512 S512x16 S100000x16 where
  lhsContracting := [1]
  rhsContracting := [0]
  lhsNonContracting := [0]
  rhsNonContracting := [1]
  lhsBatch := []
  rhsBatch := []
  wf := dot_S100000x512_S512x16_S100000x16_1_0_0_1_n_n_wf
def gather_S100000x16_S3200000x1_S3200000x16_1_0_n_n_0_1_116 : GatherDims S100000x16 S3200000x1 S3200000x16 where
  offsetDims := [1]
  collapsedSliceDims := [0]
  operandBatchingDims := []
  startIndicesBatchingDims := []
  startIndexMap := [0]
  indexVectorDim := 1
  sliceSizes := ![1, 16]
  wf := gather_S100000x16_S3200000x1_S3200000x16_1_0_n_n_0_1_116_wf
def scatter_S100000x16_S3200000x1_S3200000x16_1_0_0_1 : ScatterDims S100000x16 S3200000x1 S3200000x16 where
  updateWindowDims := [1]
  insertedWindowDims := [0]
  scatterDimsToOperandDims := [0]
  indexVectorDim := 1
  wf := scatter_S100000x16_S3200000x1_S3200000x16_1_0_0_1_wf
def dot_S100000x16_S16x40_S100000x40_1_0_0_1_n_n : DotDims S100000x16 S16x40 S100000x40 where
  lhsContracting := [1]
  rhsContracting := [0]
  lhsNonContracting := [0]
  rhsNonContracting := [1]
  lhsBatch := []
  rhsBatch := []
  wf := dot_S100000x16_S16x40_S100000x40_1_0_0_1_n_n_wf
def gather_S100000x40_S3200000x1_S3200000x40_1_0_n_n_0_1_140 : GatherDims S100000x40 S3200000x1 S3200000x40 where
  offsetDims := [1]
  collapsedSliceDims := [0]
  operandBatchingDims := []
  startIndicesBatchingDims := []
  startIndexMap := [0]
  indexVectorDim := 1
  sliceSizes := ![1, 40]
  wf := gather_S100000x40_S3200000x1_S3200000x40_1_0_n_n_0_1_140_wf
def scatter_S100000x40_S3200000x1_S3200000x40_1_0_0_1 : ScatterDims S100000x40 S3200000x1 S3200000x40 where
  updateWindowDims := [1]
  insertedWindowDims := [0]
  scatterDimsToOperandDims := [0]
  indexVectorDim := 1
  wf := scatter_S100000x40_S3200000x1_S3200000x40_1_0_0_1_wf

class Facts : Prop extends Facts₀ where

variable [Facts]
-- ==== Proof.Spec.lean ====
/-
  A two-layer graph convolution with a row-wise log-softmax, as functions of whole arrays on the extended reals.

  Each layer is a dense product of the node features with a weight matrix; between the layers the products are
  gathered along the edges, scaled and summed back into the nodes (that part is shared text of the two programs and is
  carried elsewhere as opaque functions). What is stated here is the dense arithmetic, for an array of ANY number of
  rows `n`, so that one definition serves a block of rows and the whole array alike:

  * `dense x w`: entry (r, q) is the sum over k of x(r, k) · w(k, q);
  * `biasRow a b`: a one-row array `b` added to every row of `a`;
  * `relu z`: the maximum of each entry with the word of 0.0;
  * `logSoftmax z`: entry (r, q) is (z(r, q) − M r) − log (sum over k of exp (z(r, k) − M r)), with M r the maximum of row r
    taken from the word of −∞.

  Every one of these reads row r of its result from row r of its operand only (`dense_congr_row`,
  `logSoftmax_congr_row`, `biasRow_apply`, `relu_apply`): a block of consecutive rows of the result is the same function of
  the block of rows.

  The last section reads a reduction of a rank-2 array along its second axis at a row: the index a row index lifts to
  at column k is (r, k).
-/
import Idealize.ShloMosaic.Lib.ValueIdx
import Idealize.ShloMosaic.PureOps.Ideal.Laws

noncomputable section

open scoped BigOperators

namespace Cert.Gcn

open Idealize.ShloMosaic Idealize.ShloMosaic.ValueIdx

/-- The word of 0.0, kept as a word: both programs compare with the same one. -/
abbrev zeroWord : EReal := Ideal.ofBits .f32 0x00000000#32
/-- The word of −∞, from which both programs start a row's maximum. -/
abbrev negInfWord : EReal := Ideal.ofBits .f32 0xFF800000#32

/-! ## The dense product -/

/-- `x · w`: entry (r, q) is the sum over the shared axis of the products. -/
def dense {n K C : Nat} (x : (⟨2, ![n, K]⟩ : Shape).Idx → EReal) (w : (⟨2, ![K, C]⟩ : Shape).Idx → EReal) :
    (⟨2, ![n, C]⟩ : Shape).Idx → EReal :=
  fun i => ∑ k : Fin K, x (ix2 (i 0 : Fin n) k) * w (ix2 k (i 1 : Fin C))

theorem dense_apply {n K C : Nat} (x : (⟨2, ![n, K]⟩ : Shape).Idx → EReal) (w : (⟨2, ![K, C]⟩ : Shape).Idx → EReal)
    (r : Fin n) (q : Fin C) : dense x w (ix2 r q) = ∑ k : Fin K, x (ix2 r k) * w (ix2 k q) := rfl

/-- Row r of the product depends on row r of the left operand only. -/
theorem dense_congr_row {n n' K C : Nat} (x : (⟨2, ![n, K]⟩ : Shape).Idx → EReal) (x' : (⟨2, ![n', K]⟩ : Shape).Idx → EReal)
    (w : (⟨2, ![K, C]⟩ : Shape).Idx → EReal) (r : Fin n) (r' : Fin n') (q : Fin C)
    (h : ∀ k : Fin K, x (ix2 r k) = x' (ix2 r' k)) : dense x w (ix2 r q) = dense x' w (ix2 r' q) := by
  rw [dense_apply, dense_apply]
  exact Finset.sum_congr rfl fun k _ => by rw [h k]

/-! ## A row added to every row, and the rectifier -/

/-- A one-row array added to every row. -/
def biasRow {n C : Nat} (a : (⟨2, ![n, C]⟩ : Shape).Idx → EReal) (b : (⟨2, ![1, C]⟩ : Shape).Idx → EReal) :
    (⟨2, ![n, C]⟩ : Shape).Idx → EReal :=
  fun j => a j + b (ix2 (0 : Fin 1) (j 1 : Fin C))

theorem biasRow_apply {n C : Nat} (a : (⟨2, ![n, C]⟩ : Shape).Idx → EReal) (b : (⟨2, ![1, C]⟩ : Shape).Idx → EReal)
    (r : Fin n) (q : Fin C) : biasRow a b (ix2 r q) = a (ix2 r q) + b (ix2 (0 : Fin 1) q) := rfl

/-- A vector as a one-row array. -/
def rowOf {C : Nat} (v : (⟨1, ![C]⟩ : Shape).Idx → EReal) : (⟨2, ![1, C]⟩ : Shape).Idx → EReal :=
  fun j => v (ix1 (j 1 : Fin C))

theorem rowOf_apply {C : Nat} (v : (⟨1, ![C]⟩ : Shape).Idx → EReal) (u : Fin 1) (q : Fin C) :
    rowOf v (ix2 u q) = v (ix1 q) := rfl

/-- The rectifier: each entry's maximum with the word of 0.0. -/
def relu {s : Shape} (z : s.Idx → EReal) : s.Idx → EReal := fun j => max (z j) zeroWord

theorem relu_apply {s : Shape} (z : s.Idx → EReal) (j : s.Idx) : relu z j = max (z j) zeroWord := rfl

/-! ## The row-wise log-softmax -/

/-- Row r's maximum, folded from the word of −∞. -/
def rowMax {n C : Nat} (z : (⟨2, ![n, C]⟩ : Shape).Idx → EReal) (r : Fin n) : EReal :=
  (Finset.univ : Finset (Fin C)).fold max negInfWord (fun k => z (ix2 r k))

/-- Row r's maximum depends on row r only. -/
theorem rowMax_congr {n n' C : Nat} (z : (⟨2, ![n, C]⟩ : Shape).Idx → EReal) (z' : (⟨2, ![n', C]⟩ : Shape).Idx → EReal)
    (r : Fin n) (r' : Fin n') (h : ∀ k : Fin C, z (ix2 r k) = z' (ix2 r' k)) : rowMax z r = rowMax z' r' := by
  unfold rowMax
  exact congrArg (fun f => Finset.fold max negInfWord f (Finset.univ : Finset (Fin C))) (funext h)

/-- Each entry minus its row's maximum, minus the logarithm of the row's sum of the exponentials of those differences. -/
def logSoftmax {n C : Nat} (z : (⟨2, ![n, C]⟩ : Shape).Idx → EReal) : (⟨2, ![n, C]⟩ : Shape).Idx → EReal :=
  fun i => (z i - rowMax z (i 0 : Fin n))
    - Ideal.log (∑ k : Fin C, Ideal.exp (z (ix2 (i 0 : Fin n) k) - rowMax z (i 0 : Fin n)))

theorem logSoftmax_apply {n C : Nat} (z : (⟨2, ![n, C]⟩ : Shape).Idx → EReal) (r : Fin n) (q : Fin C) :
    logSoftmax z (ix2 r q)
      = (z (ix2 r q) - rowMax z r) - Ideal.log (∑ k : Fin C, Ideal.exp (z (ix2 r k) - rowMax z r)) := rfl

/-- Row r of the log-softmax depends on row r of the operand only. -/
theorem logSoftmax_congr_row {n n' C : Nat} (z : (⟨2, ![n, C]⟩ : Shape).Idx → EReal) (z' : (⟨2, ![n', C]⟩ : Shape).Idx → EReal)
    (r : Fin n) (r' : Fin n') (q : Fin C) (h : ∀ k : Fin C, z (ix2 r k) = z' (ix2 r' k)) :
    logSoftmax z (ix2 r q) = logSoftmax z' (ix2 r' q) := by
  have hM := rowMax_congr z z' r r' h
  have hS : (∑ k : Fin C, Ideal.exp (z (ix2 r k) - rowMax z r)) = ∑ k : Fin C, Ideal.exp (z' (ix2 r' k) - rowMax z' r') :=
    Finset.sum_congr rfl fun k _ => by rw [h k, hM]
  rw [logSoftmax_apply, logSoftmax_apply, hS, hM, h q]

/-- The maximum with the word of −∞ on the left is the other operand. -/
theorem max_negInfWord (y : EReal) : max negInfWord y = y := by
  show max (Ideal.ofBits .f32 0xFF800000#32) y = y
  simp [Ideal.ofBits, Ideal.ieee]

/-! ## A reduction along the second axis, read at a row -/

/-- The index a row index r lifts to at column k, for a reduction of a rank-2 array along its second axis: (r, k). -/
theorem lift_row {n C : Nat} (h : (⟨2, ![n, C]⟩ : Shape).Reduces [1] (⟨1, ![n]⟩ : Shape)) (r : Fin n)
    (k : Fin ((⟨2, ![n, C]⟩ : Shape).size 1)) : h.lift (ix1 r) k = ix2 r (⟨k.val, k.isLt⟩ : Fin C) := by
  funext c; apply Fin.ext
  match c with
  | ⟨0, _⟩ => rfl
  | ⟨1, _⟩ => rfl

/-- A maximum-reduction of the vector unit along the second axis, from the word of −∞, at row r: the row's maximum. -/
theorem multiReduction_max_row {n C : Nat} (src : FVec Ideal (⟨2, ![n, C]⟩ : Shape) .f32)
    (h : (⟨2, ![n, C]⟩ : Shape).Reduces [1] (⟨1, ![n]⟩ : Shape)) (hφ : FKind.Formats .f32)
    (hacc : (0xFF800000#32 : BitVec 32) = FKind.maximumf.neutral .f32 hφ) (r : Fin n) :
    multiReduction .maximumf [1] (⟨1, ![n]⟩ : Shape) src 0xFF800000#32 h hφ hacc (ix1 r) = rowMax src r := by
  rw [Ideal.multiReduction_maximumf_single]
  unfold rowMax
  have hf : (src ∘ h.lift (ix1 r)) = fun k : Fin C => src (ix2 r k) := funext fun k => congrArg src (lift_row h r k)
  exact congrArg (fun f => Finset.fold max (Ideal.ofBits .f32 0xFF800000#32) f (Finset.univ : Finset (Fin C))) hf

/-- A sum-reduction of the vector unit along the second axis, at row r: the row's sum. -/
theorem multiReduction_add_row {n C : Nat} (src : FVec Ideal (⟨2, ![n, C]⟩ : Shape) .f32)
    (h : (⟨2, ![n, C]⟩ : Shape).Reduces [1] (⟨1, ![n]⟩ : Shape)) (hφ : FKind.Formats .f32)
    (hacc : (0x00000000#32 : BitVec 32) = FKind.add.neutral .f32 hφ) (r : Fin n) :
    multiReduction .add [1] (⟨1, ![n]⟩ : Shape) src 0x00000000#32 h hφ hacc (ix1 r) = ∑ k : Fin C, src (ix2 r k) := by
  rw [Ideal.multiReduction_add_single]
  exact Finset.sum_congr rfl fun k _ => congrArg src (lift_row h r k)

/-- The host's maximum-reduction along the second axis, from a scalar holding the word of −∞, at row r: the row's maximum. -/
theorem hostReduce_max_row {n C : Nat} (x : FVec Ideal (⟨2, ![n, C]⟩ : Shape) .f32)
    (h' : (⟨2, ![n, C]⟩ : Shape).ReducesTo [1] (⟨1, ![n]⟩ : Shape))
    (h : (⟨2, ![n, C]⟩ : Shape).Reduces [1] (⟨1, ![n]⟩ : Shape)) (hu : 0 < (⟨0, ![]⟩ : Shape).numel) (r : Fin n) :
    Host.reduce FloatOps.maximumf x (constant (⟨0, ![]⟩ : Shape) .f32 0xFF800000#32) h' hu (ix1 r) = rowMax x r := by
  rw [Host.reduce_eq_fold_single FloatOps.maximumf x _ h' h hu]
  unfold rowMax
  have hf : (x ∘ h.lift (ix1 r)) = fun k : Fin C => x (ix2 r k) := funext fun k => congrArg x (lift_row h r k)
  exact congrArg (fun f => Finset.fold max (Ideal.ofBits .f32 0xFF800000#32) f (Finset.univ : Finset (Fin C))) hf

/-- The host's sum-reduction along the second axis from an initial scalar, at row r: the initial value plus the row's sum. -/
theorem hostReduceAdd_row {n C : Nat} (x : FVec Ideal (⟨2, ![n, C]⟩ : Shape) .f32)
    (h' : (⟨2, ![n, C]⟩ : Shape).ReducesTo [1] (⟨1, ![n]⟩ : Shape))
    (h : (⟨2, ![n, C]⟩ : Shape).Reduces [1] (⟨1, ![n]⟩ : Shape)) (init : EReal) (r : Fin n) :
    Ideal.hostReduceAdd h' x init (ix1 r) = init + ∑ k : Fin C, x (ix2 r k) := by
  rw [Ideal.hostReduceAdd_single h' h]
  exact congrArg (init + ·) (Finset.sum_congr rfl fun k _ => congrArg x (lift_row h r k))

end Cert.Gcn

end
-- ==== Proof.Chain.lean ====
/-
  The part of the computation that both programs spell the same way, as named functions of the arguments: the edges'
  sources and destinations read off the index array, jnp's wrap of a negative index, the weighted in-degree of each
  node (a scatter-add of the edge weights at the destinations), the symmetric normalisation
  d(src)^(-1/2) · weight · d(dst)^(-1/2) with the inverse square root taken only where the degree is positive, and one
  round of message passing: gather the rows of a node table at the sources, scale each by its edge's normalised weight,
  and scatter-add them at the destinations. Nothing here is opened by the value proof: the kernel's run and the
  reference's run both reach these very terms, and the proof only compares what goes INTO them.

  `final` is the whole network on the extended reals: two rounds of (dense product, message passing, bias), a rectifier
  between them and a row-wise log-softmax at the end.
-/
import proofs.«402597_j61950608278026_2_alg».proof.Proof.Gen.KernelIdeal
import proofs.«402597_j61950608278026_2_alg».proof.Proof.Spec

noncomputable section

namespace Cert.KernelIdeal.Chain

open Idealize.ShloMosaic Cert.KernelIdeal Cert.KernelIdeal.Gen

variable {F : FTy → Type} [FloatOps F]

/-- The edges' source nodes: row 0 of the index array as a vector. -/
def srcOf (ei : (⟨S2x3200000, .i32⟩ : BufTy).Contents (Elt F)) : (⟨S3200000, .i32⟩ : BufTy).Contents (Elt F) :=
  shapeCast S3200000 (extractStridedSlice S1x3200000 ![0, 0] ei slices_S2x3200000_S1x3200000_0_0) shapeCasts_S1x3200000_S3200000

/-- The edges' destination nodes: row 1 of the index array as a vector. -/
def dstOf (ei : (⟨S2x3200000, .i32⟩ : BufTy).Contents (Elt F)) : (⟨S3200000, .i32⟩ : BufTy).Contents (Elt F) :=
  shapeCast S3200000 (extractStridedSlice S1x3200000 ![1, 0] ei slices_S2x3200000_S1x3200000_1_0) shapeCasts_S1x3200000_S3200000

/-- jnp's reading of a possibly negative index: a negative word has the node count added. As a column of start indices. -/
def wrapCol (ix : (⟨S3200000, .i32⟩ : BufTy).Contents (Elt F)) : (⟨S3200000x1, .i32⟩ : BufTy).Contents (Elt F) :=
  broadcastInDim S3200000x1 ![0] bcast_S3200000_S3200000x1_0
    (select (cmpi .slt ix (broadcastInDim S3200000 ![] bcast_S_S3200000 (constantI S_ 32 0#32)))
      (addi ix (broadcastInDim S3200000 ![] bcast_S_S3200000 (constantI S_ 32 100000#32))) ix)

/-- An index vector as a column of scatter indices (no wrap: the scatter drops what is out of range). -/
def rawCol (ix : (⟨S3200000, .i32⟩ : BufTy).Contents (Elt F)) : (⟨S3200000x1, .i32⟩ : BufTy).Contents (Elt F) :=
  broadcastInDim S3200000x1 ![0] bcast_S3200000_S3200000x1_0 ix

/-- Each node's weighted in-degree: the edge weights summed at their destinations. -/
def degOf (ei : (⟨S2x3200000, .i32⟩ : BufTy).Contents (Elt F)) (ew : (⟨S3200000, .f32⟩ : BufTy).Contents (Elt F)) :
    (⟨S100000, .f32⟩ : BufTy).Contents (Elt F) :=
  Host.scatterAdd (F := F) scatter_S100000_S3200000x1_S3200000_n_0_0_1
    (broadcastInDim S100000 ![] bcast_S_S100000 (constant (F := F) S_ .f32 0x00000000#32)) (rawCol (dstOf ei)) ew

/-- d^(-1/2) where the degree is positive (the inverse square root of the degree kept away from zero), 0.0 elsewhere. -/
def invSqrtDeg (ei : (⟨S2x3200000, .i32⟩ : BufTy).Contents (Elt F)) (ew : (⟨S3200000, .f32⟩ : BufTy).Contents (Elt F)) :
    (⟨S100000, .f32⟩ : BufTy).Contents (Elt F) :=
  select (cmpf (F := F) .ogt (degOf ei ew) (broadcastInDim S100000 ![] bcast_S_S100000 (constant (F := F) S_ .f32 0x00000000#32)))
    (Host.rsqrt (F := F) (maximumf (F := F) (degOf ei ew) (broadcastInDim S100000 ![] bcast_S_S100000 (constant (F := F) S_ .f32 0x0DA24260#32))))
    (broadcastInDim S100000 ![] bcast_S_S100000 (id (constant (F := F) S_ .f32 0x00000000#32)))

/-- Each edge's normalised weight: d(src)^(-1/2) · weight · d(dst)^(-1/2). -/
def normOf (ei : (⟨S2x3200000, .i32⟩ : BufTy).Contents (Elt F)) (ew : (⟨S3200000, .f32⟩ : BufTy).Contents (Elt F)) :
    (⟨S3200000, .f32⟩ : BufTy).Contents (Elt F) :=
  mulf (F := F) (mulf (F := F) (Host.gather gather_S100000_S3200000x1_S3200000_n_0_n_n_0_1_1 (invSqrtDeg ei ew) (wrapCol (srcOf ei))) ew)
    (Host.gather gather_S100000_S3200000x1_S3200000_n_0_n_n_0_1_1 (invSqrtDeg ei ew) (wrapCol (dstOf ei)))

/-- One round of message passing over a table of 16 features per node: the rows at the sources, each scaled by its edge's
    normalised weight, summed at the destinations. -/
def pass16 (ei : (⟨S2x3200000, .i32⟩ : BufTy).Contents (Elt F)) (ew : (⟨S3200000, .f32⟩ : BufTy).Contents (Elt F))
    (t : (⟨S100000x16, .f32⟩ : BufTy).Contents (Elt F)) : (⟨S100000x16, .f32⟩ : BufTy).Contents (Elt F) :=
  Host.scatterAdd (F := F) scatter_S100000x16_S3200000x1_S3200000x16_1_0_0_1
    (broadcastInDim S100000x16 ![] bcast_S_S100000x16 (constant (F := F) S_ .f32 0x00000000#32)) (rawCol (dstOf ei))
    (mulf (F := F) (broadcastInDim S3200000x16 ![0, 1] bcast_S3200000x1_S3200000x16_0_1
        (broadcastInDim S3200000x1 ![0] bcast_S3200000_S3200000x1_0 (normOf ei ew)))
      (Host.gather gather_S100000x16_S3200000x1_S3200000x16_1_0_n_n_0_1_116 t (wrapCol (srcOf ei))))

/-- The same over a table of 40 features per node. -/
def pass40 (ei : (⟨S2x3200000, .i32⟩ : BufTy).Contents (Elt F)) (ew : (⟨S3200000, .f32⟩ : BufTy).Contents (Elt F))
    (t : (⟨S100000x40, .f32⟩ : BufTy).Contents (Elt F)) : (⟨S100000x40, .f32⟩ : BufTy).Contents (Elt F) :=
  Host.scatterAdd (F := F) scatter_S100000x40_S3200000x1_S3200000x40_1_0_0_1
    (broadcastInDim S100000x40 ![] bcast_S_S100000x40 (constant (F := F) S_ .f32 0x00000000#32)) (rawCol (dstOf ei))
    (mulf (F := F) (broadcastInDim S3200000x40 ![0, 1] bcast_S3200000x1_S3200000x40_0_1
        (broadcastInDim S3200000x1 ![0] bcast_S3200000_S3200000x1_0 (normOf ei ew)))
      (Host.gather gather_S100000x40_S3200000x1_S3200000x40_1_0_n_n_0_1_140 t (wrapCol (srcOf ei))))

/-- The whole network on the extended reals, as ONE function of the seven arguments: what both programs compute. -/
def final (x : (⟨S100000x512, .f32⟩ : BufTy).Contents (Elt Ideal)) (ei : (⟨S2x3200000, .i32⟩ : BufTy).Contents (Elt Ideal))
    (ew : (⟨S3200000, .f32⟩ : BufTy).Contents (Elt Ideal)) (w1 : (⟨S512x16, .f32⟩ : BufTy).Contents (Elt Ideal))
    (b1 : (⟨S16, .f32⟩ : BufTy).Contents (Elt Ideal)) (w2 : (⟨S16x40, .f32⟩ : BufTy).Contents (Elt Ideal))
    (b2 : (⟨S40, .f32⟩ : BufTy).Contents (Elt Ideal)) : (⟨S100000x40, .f32⟩ : BufTy).Contents (Elt Ideal) :=
  Cert.Gcn.logSoftmax (n := 100000) (C := 40)
    (Cert.Gcn.biasRow (n := 100000) (C := 40)
      (pass40 ei ew
        (Cert.Gcn.dense (n := 100000) (K := 16) (C := 40)
          (Cert.Gcn.relu (Cert.Gcn.biasRow (n := 100000) (C := 16)
            (pass16 ei ew (Cert.Gcn.dense (n := 100000) (K := 512) (C := 16) x w1)) (Cert.Gcn.rowOf (C := 16) b1)))
          w2))
      (Cert.Gcn.rowOf (C := 40) b2))

end Cert.KernelIdeal.Chain

end
-- ==== Proof.Region0.lean ====
/-
  The first dense layer. The first region multiplies the node features x : [100000, 512] by the weight matrix
  W1 : [512, 16], 2000 rows at a time: at point t of its 50 points it reads rows 2000 t … 2000 t + 1999 of x and all of W1,
  and writes the product of the two into rows 2000 t … 2000 t + 1999 of the result.

  Row r of a dense product depends on row r of the left operand only, so the product of a block of rows with W1 is the
  same block of rows of x · W1; the 50 blocks of rows tile the result. Hence the array the region leaves is x · W1.

  The steps: the body's value on a block is the dense product of the block (a one-axis contraction, re-indexed by its one
  coordinate; the two narrowing format changes are the identity on extended reals); the three index maps over the grid;
  each window's block as rows of its array; what a point writes back; the blocks cover the rows.
-/
import proofs.«402597_j61950608278026_2_alg».proof.Proof.Gen.KernelIdeal.Frame
import proofs.«402597_j61950608278026_2_alg».proof.Proof.Spec
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.Region0

open Idealize.ShloMosaic Idealize.ShloMosaic.TcCoe Idealize.SL.Sem Idealize.ShloMosaic.ValueIdx Cert.KernelIdeal Cert.KernelIdeal.Gen
open Idealize.ShloMosaic.Pipeline (Dat)

/-! ## The body's value on a block: the dense product of the block -/

/-- The left operand's index at output index i and contraction index q has i's row … -/
theorem lhs_axis0 (i : S2000x16.Idx) (q : dot_S2000x512_S512x16_S2000x16_1_0_0_1_n_n.contr.Idx) :
    (dot_S2000x512_S512x16_S2000x16_1_0_0_1_n_n.lhsIdx i q 0).val = (i 0).val := by
  unfold DotDims.lhsIdx
  rw [dif_neg (show ¬(0 : Fin S2000x512.rank) ∈ dot_S2000x512_S512x16_S2000x16_1_0_0_1_n_n.lhsBatch by decide), dif_pos (show (0 : Fin S2000x512.rank) ∈ dot_S2000x512_S512x16_S2000x16_1_0_0_1_n_n.lhsNonContracting by decide)]
  rfl
/-- … and the contraction coordinate as its column. -/
theorem lhs_axis1 (i : S2000x16.Idx) (q : dot_S2000x512_S512x16_S2000x16_1_0_0_1_n_n.contr.Idx) :
    (dot_S2000x512_S512x16_S2000x16_1_0_0_1_n_n.lhsIdx i q 1).val = (q ⟨0, by decide⟩).val :=
  dot_S2000x512_S512x16_S2000x16_1_0_0_1_n_n.lhsIdx_val_of_single rfl i q
/-- The right operand's index has the contraction coordinate as its row … -/
theorem rhs_axis0 (i : S2000x16.Idx) (q : dot_S2000x512_S512x16_S2000x16_1_0_0_1_n_n.contr.Idx) :
    (dot_S2000x512_S512x16_S2000x16_1_0_0_1_n_n.rhsIdx i q 0).val = (q ⟨0, by decide⟩).val :=
  dot_S2000x512_S512x16_S2000x16_1_0_0_1_n_n.rhsIdx_val_of_single rfl i q
/-- … and i's column. -/
theorem rhs_axis1 (i : S2000x16.Idx) (q : dot_S2000x512_S512x16_S2000x16_1_0_0_1_n_n.contr.Idx) :
    (dot_S2000x512_S512x16_S2000x16_1_0_0_1_n_n.rhsIdx i q 1).val = (i 1).val := by
  unfold DotDims.rhsIdx
  rw [dif_neg (show ¬(1 : Fin S512x16.rank) ∈ dot_S2000x512_S512x16_S2000x16_1_0_0_1_n_n.rhsBatch by decide), dif_pos (show (1 : Fin S512x16.rank) ∈ dot_S2000x512_S512x16_S2000x16_1_0_0_1_n_n.rhsNonContracting by decide)]
  rfl

/-- The product into zeros at entry (p, q): the sum over k of u(p, k) · w(k, q). -/
theorem prod_apply (u : FVec Ideal S2000x512 .bf16) (w : FVec Ideal S512x16 .bf16) (p : Fin 2000) (q : Fin 16) :
    FloatOps.matmul dot_S2000x512_S512x16_S2000x16_1_0_0_1_n_n none u w (constant S2000x16 .f32 0x00000000#32) (ix2 p q)
      = ∑ k : Fin 512, u (ix2 p k) * w (ix2 k q) := by
  rw [Ideal.matmul_constant_zero_apply, ← Equiv.sum_comp (contrEquiv1 dot_S2000x512_S512x16_S2000x16_1_0_0_1_n_n 512 rfl rfl).symm]
  refine Finset.sum_congr rfl fun k _ => ?_
  have hk := contrEquiv1_symm_val dot_S2000x512_S512x16_S2000x16_1_0_0_1_n_n 512 rfl rfl k
  have el : dot_S2000x512_S512x16_S2000x16_1_0_0_1_n_n.lhsIdx (ix2 p q) ((contrEquiv1 dot_S2000x512_S512x16_S2000x16_1_0_0_1_n_n 512 rfl rfl).symm k) = ix2 p k := funext fun a => Fin.ext (by
    match a with
    | ⟨0, _⟩ => exact lhs_axis0 _ _
    | ⟨1, _⟩ => exact (lhs_axis1 _ _).trans hk)
  have er : dot_S2000x512_S512x16_S2000x16_1_0_0_1_n_n.rhsIdx (ix2 p q) ((contrEquiv1 dot_S2000x512_S512x16_S2000x16_1_0_0_1_n_n 512 rfl rfl).symm k) = ix2 k q := funext fun a => Fin.ext (by
    match a with
    | ⟨0, _⟩ => exact (rhs_axis0 _ _).trans hk
    | ⟨1, _⟩ => exact rhs_axis1 _ _)
  rw [el, er]

/-- The body's value on a block of 2000 rows of x and all of W1 is the dense product of the two: entry (p, q) is the sum
    over k of x(p, k) · W1(k, q). The two narrowing format changes are the identity on extended reals. -/
theorem pay_eq (x0 : Vec Ideal S2000x512 .f32) (x1 : Vec Ideal S512x16 .f32) :
    k0_pay1 (F := Ideal) x0 x1 = Cert.Gcn.dense (n := 2000) (K := 512) (C := 16) x0 x1 := by
  funext j
  obtain ⟨p, q, rfl⟩ : ∃ (p : Fin 2000) (q : Fin 16), j = ix2 p q := ⟨j 0, j 1, eq_ix2 j⟩
  rw [Cert.Gcn.dense_apply]
  unfold k0_pay1
  refine (prod_apply _ _ p q).trans ?_
  refine Finset.sum_congr rfl fun k _ => ?_
  rw [truncf_apply, truncf_apply]

/-! ## The index maps over the grid -/

theorem hz : (![0, 0] : Fin 2 → Nat) = fun _ => 0 := funext fun a => by fin_cases a <;> rfl

/-- At point t the features' window and the result's window are at block (t, 0), the weights' window at block (0, 0). -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The grid has 50 points. -/
theorem lt_points (t : Fin cfg0.N) : t.val < 50 := by
  have hN : cfg0.N = 50 := N_0
  have := t.isLt
  omega

section Blocks

variable (V : (c : Dev nD) → (b : Ref sig .tc) → Buf (Elt Ideal) ((c : Thread nD τ).loc b))

/-! ## Each window's block as rows of its array -/

/-- Entry (p, k) of the features' block at point t is entry (2000 t + p, k) of the features. -/
theorem xblock_apply (c : Dev nD) (t : Fin cfg0.N) (p : Fin 2000) (k : Fin 512) (h : t.val * 2000 + p.val < 100000) :
    iblk0 V c 0 t (ix2 p k) = V c main_arg0 (ix2 (⟨t.val * 2000 + p.val, h⟩ : Fin 100000) k) := by
  obtain ⟨e0, e1, -⟩ := idx_facts t
  show V c main_arg0 (((cfg0.win 0).blk t).view.emb (ix2 p k)) = _
  congr 1
  funext a
  apply Fin.ext
  match a with
  | ⟨0, _⟩ => show win0_0.index t (0 : Fin 2) * 2000 + 1 * p.val = t.val * 2000 + p.val; omega
  | ⟨1, _⟩ => show win0_0.index t (1 : Fin 2) * 512 + 1 * k.val = k.val; omega

/-- The weights' block at every point is the weights. -/
theorem wblock_eq (c : Dev nD) (t : Fin cfg0.N) : iblk0 V c 1 t = V c main_arg3 := by
  obtain ⟨-, -, e2, e3, -⟩ := idx_facts t
  funext j
  show V c main_arg3 (((cfg0.win 1).blk t).view.emb j) = V c main_arg3 j
  congr 1
  funext a
  apply Fin.ext
  match a with
  | ⟨0, _⟩ => show win0_1.index t (0 : Fin 2) * 512 + 1 * (j 0).val = (j 0).val; omega
  | ⟨1, _⟩ => show win0_1.index t (1 : Fin 2) * 16 + 1 * (j 1).val = (j 1).val; omega

/-- Entry (p, q) of the result's block at point t sits at (2000 t + p, q) of the result. -/
theorem oblock_emb (t : Fin cfg0.N) (p : Fin 2000) (q : Fin 16) (h : t.val * 2000 + p.val < 100000) :
    ((cfg0.win 2).blk t).view.emb (ix2 p q) = ix2 (⟨t.val * 2000 + p.val, h⟩ : Fin 100000) q := by
  obtain ⟨-, -, -, -, e4, e5⟩ := idx_facts t
  funext a
  apply Fin.ext
  match a with
  | ⟨0, _⟩ => show win0_2.index t (0 : Fin 2) * 2000 + 1 * p.val = t.val * 2000 + p.val; omega
  | ⟨1, _⟩ => show win0_2.index t (1 : Fin 2) * 16 + 1 * q.val = q.val; omega

/-! ## What a point writes back -/

/-- Point t writes back rows 2000 t … 2000 t + 1999 of x · W1. -/
theorem flushed_eq (c : Dev nD) (t : Fin cfg0.N) :
    (dat0 V c).flushed 2 t = ((cfg0.win 2).blk t).view.read (Elt Ideal)
      (Cert.Gcn.dense (n := 100000) (K := 512) (C := 16) (V c main_arg0) (V c main_arg3)) := by
  show (cfg0.win 2).cut (grid0.coords t) ((dat0 V c).after 2 t) = _
  rw [after0_2]
  unfold out0_2
  rw [View.canon_unit_zero hz]
  simp only [View.ld_unit_zero (S := S2000x512) hz, View.ld_unit_zero (S := S512x16) hz]
  rw [pay_eq, wblock_eq V c t]
  funext y
  obtain ⟨p, q, rfl⟩ : ∃ (p : Fin 2000) (q : Fin 16), y = ix2 p q := ⟨y 0, y 1, eq_ix2 y⟩
  have ht := lt_points t
  have hb : t.val * 2000 + p.val < 100000 := by have := p.isLt; omega
  show Cert.Gcn.dense (n := 2000) (K := 512) (C := 16) (iblk0 V c 0 t) (V c main_arg3) (ix2 p q)
    = Cert.Gcn.dense (n := 100000) (K := 512) (C := 16) (V c main_arg0) (V c main_arg3) (((cfg0.win 2).blk t).view.emb (ix2 p q))
  rw [oblock_emb t p q hb]
  exact Cert.Gcn.dense_congr_row _ _ _ p ⟨t.val * 2000 + p.val, hb⟩ q fun k => xblock_apply V c t p k hb

end Blocks

/-! ## The blocks cover the rows -/

/-- An index of the result is in point t's block iff each coordinate is in the block's range on its axis. -/
theorem mem_blk (t : Fin cfg0.N) (i : S100000x16.Idx) :
    i ∈ ((cfg0.win 2).blk t).view.set ↔ ∀ a : Fin 2, win0_2.index t a * S2000x16.size a ≤ (i a).val ∧ (i a).val < win0_2.index t a * S2000x16.size a + S2000x16.size a := by
  show i ∈ ((View.whole main_v29).slice (win0_2.rect t)).set ↔ _
  rw [View.set_slice_whole, Rect.mem_set_unit]
  exact Iff.rfl

/-- Row r of the result is in the block of point r / 2000, which writes back. -/
theorem cover (i : S100000x16.Idx) :
    ∃ t : Fin cfg0.N, (cfg0.win 2).flush t = true ∧ i ∈ ((cfg0.win 2).blk t).view.set := by
  have hi0 : (i 0).val < 100000 := (i 0).isLt
  have hi1 : (i 1).val < 16 := (i 1).isLt
  have hN : cfg0.N = 50 := N_0
  have hlt : (i 0).val / 2000 < cfg0.N := by omega
  obtain ⟨-, -, -, -, e4, e5⟩ := idx_facts ⟨(i 0).val / 2000, hlt⟩
  have e4' : win0_2.index ⟨(i 0).val / 2000, hlt⟩ (0 : Fin 2) = (i 0).val / 2000 := e4
  refine ⟨⟨(i 0).val / 2000, hlt⟩, flush0_2 _, ?_⟩
  rw [mem_blk]
  intro a
  match a with
  | ⟨0, _⟩ =>
    show win0_2.index ⟨(i 0).val / 2000, hlt⟩ (0 : Fin 2) * 2000 ≤ (i 0).val
      ∧ (i 0).val < win0_2.index ⟨(i 0).val / 2000, hlt⟩ (0 : Fin 2) * 2000 + 2000
    omega
  | ⟨1, _⟩ =>
    show win0_2.index ⟨(i 0).val / 2000, hlt⟩ (1 : Fin 2) * 16 ≤ (i 1).val
      ∧ (i 1).val < win0_2.index ⟨(i 0).val / 2000, hlt⟩ (1 : Fin 2) * 16 + 16
    omega

/-! ## The array the region leaves -/

/-- The first region leaves x · W1 in its result array. -/
theorem arr_eq (V : (c : Dev nD) → (b : Ref sig .tc) → Buf (Elt Ideal) ((c : Thread nD τ).loc b)) (c : Dev nD) :
    (dat0 V c).arrAt 2 cfg0.N = Cert.Gcn.dense (n := 100000) (K := 512) (C := 16) (V c main_arg0) (V c main_arg3) :=
  (dat0 V c).arrAt_eq_of_cover 2 _ (fun t _ => flushed_eq V c t) cover

end Cert.KernelIdeal.Region0

end
-- ==== Proof.Region1.lean ====
/-
  The second dense layer. The second region takes the aggregated first-layer features a : [100000, 16], the bias row
  b : [1, 16] and the weight matrix W2 : [16, 40], 2000 rows at a time: at point t of its 50 points it reads rows
  2000 t … 2000 t + 1999 of a, all of b and all of W2, adds b to every row, takes each entry's maximum with the word of 0.0,
  and writes the product of that with W2 into rows 2000 t … 2000 t + 1999 of the result.

  Adding a row to every row and the entrywise maximum read row r from row r only, and so does a dense product in its left
  operand; so what a point writes is the same block of rows of relu(a + b) · W2, and the 50 blocks of rows tile the result.
  Hence the array the region leaves is relu(a + b) · W2.

  The steps: the rectified biased block at an entry; the product at an entry (a one-axis contraction, re-indexed by its
  one coordinate); the body's value on a block; the four index maps over the grid; each window's block as rows of its
  array; what a point writes back; the blocks cover the rows.
-/
import proofs.«402597_j61950608278026_2_alg».proof.Proof.Gen.KernelIdeal.Frame
import proofs.«402597_j61950608278026_2_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Region1

open Idealize.ShloMosaic Idealize.ShloMosaic.TcCoe Idealize.SL.Sem Idealize.ShloMosaic.ValueIdx Cert.KernelIdeal Cert.KernelIdeal.Gen
open Idealize.ShloMosaic.Pipeline (Dat)

/-! ## The body's value on a block: relu(block + b) · W2 -/

/-- The block with the bias row added to every row and each entry's maximum taken with the word of 0.0, at entry (p, k):
    the maximum of x(p, k) + b(0, k) with that word. The two casts are to the operand's own shape. -/
theorem act_apply (x0 : FVec Ideal S2000x16 .f32) (x1 : FVec Ideal S1x16 .f32) (h0 : S2000x16.ShapeCasts S2000x16)
    (h1 : S1x16.ShapeCasts S1x16) (hb : S1x16.Broadcasts S2000x16) (p : Fin 2000) (k : Fin 16) :
    maximumf (addf (shapeCast S2000x16 x0 h0) (broadcastTo S2000x16 (shapeCast S1x16 x1 h1) hb))
        (broadcast S2000x16 (Scalar.ofBits (F := Ideal) .f32 0x00000000#32)) (ix2 p k)
      = Cert.Gcn.relu (Cert.Gcn.biasRow (n := 2000) (C := 16) x0 x1) (ix2 p k) := by
  rw [shapeCast_self, shapeCast_self, Cert.Gcn.relu_apply, Cert.Gcn.biasRow_apply]
  show max (x0 (ix2 p k) + broadcastTo S2000x16 x1 hb (ix2 p k)) (Ideal.ofBits .f32 0x00000000#32) = _
  rw [broadcastTo_1b_ab_apply]

/-- The left operand's index at output index i and contraction index q has i's row … -/
theorem lhs_axis0 (i : S2000x40.Idx) (q : dot_S2000x16_S16x40_S2000x40_1_0_0_1_n_n.contr.Idx) :
    (dot_S2000x16_S16x40_S2000x40_1_0_0_1_n_n.lhsIdx i q 0).val = (i 0).val := by
  unfold DotDims.lhsIdx
  rw [dif_neg (show ¬(0 : Fin S2000x16.rank) ∈ dot_S2000x16_S16x40_S2000x40_1_0_0_1_n_n.lhsBatch by decide), dif_pos (show (0 : Fin S2000x16.rank) ∈ dot_S2000x16_S16x40_S2000x40_1_0_0_1_n_n.lhsNonContracting by decide)]
  rfl
/-- … and the contraction coordinate as its column. -/
theorem lhs_axis1 (i : S2000x40.Idx) (q : dot_S2000x16_S16x40_S2000x40_1_0_0_1_n_n.contr.Idx) :
    (dot_S2000x16_S16x40_S2000x40_1_0_0_1_n_n.lhsIdx i q 1).val = (q ⟨0, by decide⟩).val :=
  dot_S2000x16_S16x40_S2000x40_1_0_0_1_n_n.lhsIdx_val_of_single rfl i q
/-- The right operand's index has the contraction coordinate as its row … -/
theorem rhs_axis0 (i : S2000x40.Idx) (q : dot_S2000x16_S16x40_S2000x40_1_0_0_1_n_n.contr.Idx) :
    (dot_S2000x16_S16x40_S2000x40_1_0_0_1_n_n.rhsIdx i q 0).val = (q ⟨0, by decide⟩).val :=
  dot_S2000x16_S16x40_S2000x40_1_0_0_1_n_n.rhsIdx_val_of_single rfl i q
/-- … and i's column. -/
theorem rhs_axis1 (i : S2000x40.Idx) (q : dot_S2000x16_S16x40_S2000x40_1_0_0_1_n_n.contr.Idx) :
    (dot_S2000x16_S16x40_S2000x40_1_0_0_1_n_n.rhsIdx i q 1).val = (i 1).val := by
  unfold DotDims.rhsIdx
  rw [dif_neg (show ¬(1 : Fin S16x40.rank) ∈ dot_S2000x16_S16x40_S2000x40_1_0_0_1_n_n.rhsBatch by decide), dif_pos (show (1 : Fin S16x40.rank) ∈ dot_S2000x16_S16x40_S2000x40_1_0_0_1_n_n.rhsNonContracting by decide)]
  rfl

/-- The product into zeros at entry (p, q): the sum over k of u(p, k) · w(k, q). -/
theorem prod_apply (u : FVec Ideal S2000x16 .bf16) (w : FVec Ideal S16x40 .bf16) (p : Fin 2000) (q : Fin 40) :
    FloatOps.matmul dot_S2000x16_S16x40_S2000x40_1_0_0_1_n_n none u w (constant S2000x40 .f32 0x00000000#32) (ix2 p q)
      = ∑ k : Fin 16, u (ix2 p k) * w (ix2 k q) := by
  rw [Ideal.matmul_constant_zero_apply, ← Equiv.sum_comp (contrEquiv1 dot_S2000x16_S16x40_S2000x40_1_0_0_1_n_n 16 rfl rfl).symm]
  refine Finset.sum_congr rfl fun k _ => ?_
  have hk := contrEquiv1_symm_val dot_S2000x16_S16x40_S2000x40_1_0_0_1_n_n 16 rfl rfl k
  have el : dot_S2000x16_S16x40_S2000x40_1_0_0_1_n_n.lhsIdx (ix2 p q) ((contrEquiv1 dot_S2000x16_S16x40_S2000x40_1_0_0_1_n_n 16 rfl rfl).symm k) = ix2 p k := funext fun a => Fin.ext (by
    match a with
    | ⟨0, _⟩ => exact lhs_axis0 _ _
    | ⟨1, _⟩ => exact (lhs_axis1 _ _).trans hk)
  have er : dot_S2000x16_S16x40_S2000x40_1_0_0_1_n_n.rhsIdx (ix2 p q) ((contrEquiv1 dot_S2000x16_S16x40_S2000x40_1_0_0_1_n_n 16 rfl rfl).symm k) = ix2 k q := funext fun a => Fin.ext (by
    match a with
    | ⟨0, _⟩ => exact (rhs_axis0 _ _).trans hk
    | ⟨1, _⟩ => exact rhs_axis1 _ _)
  rw [el, er]

/-- The body's value on a block of 2000 rows of a, the row b and all of W2 is relu(block + b) · W2. The two narrowing
    format changes are the identity on extended reals. -/
theorem pay_eq (x0 : Vec Ideal S2000x16 .f32) (x1 : Vec Ideal S1x16 .f32) (x2 : Vec Ideal S16x40 .f32) :
    k1_pay1 (F := Ideal) x0 x1 x2
      = Cert.Gcn.dense (n := 2000) (K := 16) (C := 40) (Cert.Gcn.relu (Cert.Gcn.biasRow (n := 2000) (C := 16) x0 x1)) x2 := by
  funext j
  obtain ⟨p, q, rfl⟩ : ∃ (p : Fin 2000) (q : Fin 40), j = ix2 p q := ⟨j 0, j 1, eq_ix2 j⟩
  rw [Cert.Gcn.dense_apply]
  unfold k1_pay1
  refine (prod_apply _ _ p q).trans ?_
  refine Finset.sum_congr rfl fun k _ => ?_
  rw [truncf_apply, truncf_apply]
  exact congrArg (· * x2 (ix2 k q)) (act_apply x0 x1 _ _ _ p k)

/-! ## The index maps over the grid -/

theorem hz : (![0, 0] : Fin 2 → Nat) = fun _ => 0 := funext fun a => by fin_cases a <;> rfl

/-- At point t the features' window and the result's window are at block (t, 0), the bias row's and the weights' windows
    at block (0, 0). -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- The grid has 50 points. -/
theorem lt_points (t : Fin cfg1.N) : t.val < 50 := by
  have hN : cfg1.N = 50 := N_1
  have := t.isLt
  omega

section Blocks

variable (V : (c : Dev nD) → (b : Ref sig .tc) → Buf (Elt Ideal) ((c : Thread nD τ).loc b))

/-! ## Each window's block as rows of its array -/

/-- Entry (p, k) of the features' block at point t is entry (2000 t + p, k) of the features. -/
theorem xblock_apply (c : Dev nD) (t : Fin cfg1.N) (p : Fin 2000) (k : Fin 16) (h : t.val * 2000 + p.val < 100000) :
    iblk1 V c 0 t (ix2 p k) = V c main_v42 (ix2 (⟨t.val * 2000 + p.val, h⟩ : Fin 100000) k) := by
  obtain ⟨e0, e1, -⟩ := idx_facts t
  show V c main_v42 (((cfg1.win 0).blk t).view.emb (ix2 p k)) = _
  congr 1
  funext a
  apply Fin.ext
  match a with
  | ⟨0, _⟩ => show win1_0.index t (0 : Fin 2) * 2000 + 1 * p.val = t.val * 2000 + p.val; omega
  | ⟨1, _⟩ => show win1_0.index t (1 : Fin 2) * 16 + 1 * k.val = k.val; omega

/-- The bias row's block at every point is the bias row. -/
theorem bblock_eq (c : Dev nD) (t : Fin cfg1.N) : iblk1 V c 1 t = V c main_v43 := by
  obtain ⟨-, -, e2, e3, -⟩ := idx_facts t
  funext j
  show V c main_v43 (((cfg1.win 1).blk t).view.emb j) = V c main_v43 j
  congr 1
  funext a
  apply Fin.ext
  match a with
  | ⟨0, _⟩ => show win1_1.index t (0 : Fin 2) * 1 + 1 * (j 0).val = (j 0).val; omega
  | ⟨1, _⟩ => show win1_1.index t (1 : Fin 2) * 16 + 1 * (j 1).val = (j 1).val; omega

/-- The weights' block at every point is the weights. -/
theorem wblock_eq (c : Dev nD) (t : Fin cfg1.N) : iblk1 V c 2 t = V c main_arg5 := by
  obtain ⟨-, -, -, -, e4, e5, -⟩ := idx_facts t
  funext j
  show V c main_arg5 (((cfg1.win 2).blk t).view.emb j) = V c main_arg5 j
  congr 1
  funext a
  apply Fin.ext
  match a with
  | ⟨0, _⟩ => show win1_2.index t (0 : Fin 2) * 16 + 1 * (j 0).val = (j 0).val; omega
  | ⟨1, _⟩ => show win1_2.index t (1 : Fin 2) * 40 + 1 * (j 1).val = (j 1).val; omega

/-- Entry (p, q) of the result's block at point t sits at (2000 t + p, q) of the result. -/
theorem oblock_emb (t : Fin cfg1.N) (p : Fin 2000) (q : Fin 40) (h : t.val * 2000 + p.val < 100000) :
    ((cfg1.win 3).blk t).view.emb (ix2 p q) = ix2 (⟨t.val * 2000 + p.val, h⟩ : Fin 100000) q := by
  obtain ⟨-, -, -, -, -, -, e6, e7⟩ := idx_facts t
  funext a
  apply Fin.ext
  match a with
  | ⟨0, _⟩ => show win1_3.index t (0 : Fin 2) * 2000 + 1 * p.val = t.val * 2000 + p.val; omega
  | ⟨1, _⟩ => show win1_3.index t (1 : Fin 2) * 40 + 1 * q.val = q.val; omega

/-! ## What a point writes back -/

/-- Point t writes back rows 2000 t … 2000 t + 1999 of relu(a + b) · W2. -/
theorem flushed_eq (c : Dev nD) (t : Fin cfg1.N) :
    (dat1 V c).flushed 3 t = ((cfg1.win 3).blk t).view.read (Elt Ideal)
      (Cert.Gcn.dense (n := 100000) (K := 16) (C := 40)
        (Cert.Gcn.relu (Cert.Gcn.biasRow (n := 100000) (C := 16) (V c main_v42) (V c main_v43))) (V c main_arg5)) := by
  show (cfg1.win 3).cut (grid1.coords t) ((dat1 V c).after 3 t) = _
  rw [after1_3]
  unfold out1_3
  rw [View.canon_unit_zero hz]
  simp only [View.ld_unit_zero (S := S2000x16) hz, View.ld_unit_zero (S := S1x16) hz, View.ld_unit_zero (S := S16x40) hz]
  rw [pay_eq, bblock_eq V c t, wblock_eq V c t]
  funext y
  obtain ⟨p, q, rfl⟩ : ∃ (p : Fin 2000) (q : Fin 40), y = ix2 p q := ⟨y 0, y 1, eq_ix2 y⟩
  have ht := lt_points t
  have hb : t.val * 2000 + p.val < 100000 := by have := p.isLt; omega
  show Cert.Gcn.dense (n := 2000) (K := 16) (C := 40)
      (Cert.Gcn.relu (Cert.Gcn.biasRow (n := 2000) (C := 16) (iblk1 V c 0 t) (V c main_v43))) (V c main_arg5) (ix2 p q)
    = Cert.Gcn.dense (n := 100000) (K := 16) (C := 40)
      (Cert.Gcn.relu (Cert.Gcn.biasRow (n := 100000) (C := 16) (V c main_v42) (V c main_v43))) (V c main_arg5)
      (((cfg1.win 3).blk t).view.emb (ix2 p q))
  rw [oblock_emb t p q hb]
  refine Cert.Gcn.dense_congr_row _ _ _ p ⟨t.val * 2000 + p.val, hb⟩ q fun k => ?_
  rw [Cert.Gcn.relu_apply, Cert.Gcn.relu_apply, Cert.Gcn.biasRow_apply, Cert.Gcn.biasRow_apply, xblock_apply V c t p k hb]

end Blocks

/-! ## The blocks cover the rows -/

/-- An index of the result is in point t's block iff each coordinate is in the block's range on its axis. -/
theorem mem_blk (t : Fin cfg1.N) (i : S100000x40.Idx) :
    i ∈ ((cfg1.win 3).blk t).view.set ↔ ∀ a : Fin 2, win1_3.index t a * S2000x40.size a ≤ (i a).val ∧ (i a).val < win1_3.index t a * S2000x40.size a + S2000x40.size a := by
  show i ∈ ((View.whole main_v44).slice (win1_3.rect t)).set ↔ _
  rw [View.set_slice_whole, Rect.mem_set_unit]
  exact Iff.rfl

/-- Row r of the result is in the block of point r / 2000, which writes back. -/
theorem cover (i : S100000x40.Idx) :
    ∃ t : Fin cfg1.N, (cfg1.win 3).flush t = true ∧ i ∈ ((cfg1.win 3).blk t).view.set := by
  have hi0 : (i 0).val < 100000 := (i 0).isLt
  have hi1 : (i 1).val < 40 := (i 1).isLt
  have hN : cfg1.N = 50 := N_1
  have hlt : (i 0).val / 2000 < cfg1.N := by omega
  obtain ⟨-, -, -, -, -, -, e6, e7⟩ := idx_facts ⟨(i 0).val / 2000, hlt⟩
  have e6' : win1_3.index ⟨(i 0).val / 2000, hlt⟩ (0 : Fin 2) = (i 0).val / 2000 := e6
  refine ⟨⟨(i 0).val / 2000, hlt⟩, flush1_3 _, ?_⟩
  rw [mem_blk]
  intro a
  match a with
  | ⟨0, _⟩ =>
    show win1_3.index ⟨(i 0).val / 2000, hlt⟩ (0 : Fin 2) * 2000 ≤ (i 0).val
      ∧ (i 0).val < win1_3.index ⟨(i 0).val / 2000, hlt⟩ (0 : Fin 2) * 2000 + 2000
    omega
  | ⟨1, _⟩ =>
    show win1_3.index ⟨(i 0).val / 2000, hlt⟩ (1 : Fin 2) * 40 ≤ (i 1).val
      ∧ (i 1).val < win1_3.index ⟨(i 0).val / 2000, hlt⟩ (1 : Fin 2) * 40 + 40
    omega

/-! ## The array the region leaves -/

/-- The second region leaves relu(a + b) · W2 in its result array. -/
theorem arr_eq (V : (c : Dev nD) → (b : Ref sig .tc) → Buf (Elt Ideal) ((c : Thread nD τ).loc b)) (c : Dev nD) :
    (dat1 V c).arrAt 3 cfg1.N = Cert.Gcn.dense (n := 100000) (K := 16) (C := 40)
        (Cert.Gcn.relu (Cert.Gcn.biasRow (n := 100000) (C := 16) (V c main_v42) (V c main_v43))) (V c main_arg5) :=
  (dat1 V c).arrAt_eq_of_cover 3 _ (fun t _ => flushed_eq V c t) cover

end Cert.KernelIdeal.Region1

end
-- ==== Proof.Region2.lean ====
/-
  The third region: a one-row array added to every row of a block of 2000 rows, then the row-wise log-softmax of the
  block; the fifty blocks of the result are the log-softmax of the whole biased array.

  * Two layout readings: a vector kept as a column ([a] to [a, 1]) and a column repeated along the rows' entries
    ([a, 1] to [a, b]), each read at an index written by coordinates.
  * The block's arithmetic at an entry (p, q): the row maximum and the row sum of exponentials are reductions along the
    second axis, kept as columns and repeated, so the entry is (z(p, q) - M p) - log (sum over k of exp (z(p, k) - M p)).
  * Row p of block t is row 2000 t + p of the array, the one-row array is whole at every point, and every row lies in
    the block of the point (row / 2000): the array after the region is the log-softmax of the biased array.
-/
import proofs.«402597_j61950608278026_2_alg».proof.Proof.Gen.KernelIdeal.Frame
import proofs.«402597_j61950608278026_2_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Region2

open Idealize.ShloMosaic Idealize.ShloMosaic.TcCoe Idealize.SL.Sem Idealize.ShloMosaic.ValueIdx Cert.KernelIdeal Cert.KernelIdeal.Gen
open Idealize.ShloMosaic.Pipeline (Dat)

/-! ## A vector kept as a column, and a column repeated along the rows -/

section Keepdims
variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, q)`, the operand's one column at row `p`. -/
theorem broadcastTo_a1_ab_apply {a b : ℕ} (v : (⟨2, ![a, 1]⟩ : Shape).Idx → α)
    (h : (⟨2, ![a, 1]⟩ : Shape).Broadcasts ⟨2, ![a, b]⟩) (p : Fin a) (q : Fin b) :
    broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- A length-`a` vector kept as a column and repeated along the rows reads, at `(p, q)`, the vector at `p`. -/
theorem keepdimsCol_apply {a b : ℕ} (v : (⟨1, ![a]⟩ : Shape).Idx → α) (h1 : (⟨1, ![a]⟩ : Shape).ShapeCasts ⟨2, ![a, 1]⟩)
    (h2 : (⟨2, ![a, 1]⟩ : Shape).Broadcasts ⟨2, ![a, b]⟩) (p : Fin a) (q : Fin b) :
    broadcastTo ⟨2, ![a, b]⟩ (shapeCast ⟨2, ![a, 1]⟩ v h1) h2 (ix2 p q) = v (ix1 p) :=
  (broadcastTo_a1_ab_apply _ h2 p q).trans (shapeCast_a_a1_apply v h1 p 0)

end Keepdims

/-! ## The block's arithmetic at an entry -/

/-- A row's maximum, reduced along the second axis from the word of −∞, kept as a column and repeated along the row. -/
theorem rowMaxCol_apply {n C : ℕ} (z : FVec Ideal (⟨2, ![n, C]⟩ : Shape) .f32)
    (hr : (⟨2, ![n, C]⟩ : Shape).Reduces [1] (⟨1, ![n]⟩ : Shape)) (hφ : FKind.Formats .f32)
    (hacc : (0xFF800000#32 : BitVec 32) = FKind.maximumf.neutral .f32 hφ)
    (h1 : (⟨1, ![n]⟩ : Shape).ShapeCasts ⟨2, ![n, 1]⟩) (h2 : (⟨2, ![n, 1]⟩ : Shape).Broadcasts ⟨2, ![n, C]⟩)
    (p : Fin n) (q : Fin C) :
    broadcastTo ⟨2, ![n, C]⟩
        (shapeCast ⟨2, ![n, 1]⟩ (multiReduction .maximumf [1] (⟨1, ![n]⟩ : Shape) z 0xFF800000#32 hr hφ hacc) h1) h2 (ix2 p q)
      = Cert.Gcn.rowMax z p :=
  (keepdimsCol_apply _ h1 h2 p q).trans (Cert.Gcn.multiReduction_max_row z hr hφ hacc p)

/-- The logarithm of a row's sum of exponentials, the sum reduced along the second axis, kept as a column, and the
    logarithm repeated along the row. -/
theorem logSumExpCol_apply {n C : ℕ} (s : FVec Ideal (⟨2, ![n, C]⟩ : Shape) .f32)
    (hr : (⟨2, ![n, C]⟩ : Shape).Reduces [1] (⟨1, ![n]⟩ : Shape)) (hφ : FKind.Formats .f32)
    (hacc : (0x00000000#32 : BitVec 32) = FKind.add.neutral .f32 hφ)
    (h1 : (⟨1, ![n]⟩ : Shape).ShapeCasts ⟨2, ![n, 1]⟩) (h2 : (⟨2, ![n, 1]⟩ : Shape).Broadcasts ⟨2, ![n, C]⟩)
    (p : Fin n) (q : Fin C) :
    broadcastTo ⟨2, ![n, C]⟩
        (log (shapeCast ⟨2, ![n, 1]⟩ (multiReduction .add [1] (⟨1, ![n]⟩ : Shape) (exp s) 0x00000000#32 hr hφ hacc) h1
          : FVec Ideal (⟨2, ![n, 1]⟩ : Shape) .f32)) h2 (ix2 p q)
      = Ideal.log (∑ k : Fin C, Ideal.exp (s (ix2 p k))) := by
  refine (broadcastTo_a1_ab_apply _ h2 p q).trans ?_
  show Ideal.log (shapeCast ⟨2, ![n, 1]⟩ (multiReduction .add [1] (⟨1, ![n]⟩ : Shape) (exp s) 0x00000000#32 hr hφ hacc) h1
      (ix2 p (0 : Fin 1))) = _
  refine congrArg Ideal.log ?_
  refine (shapeCast_a_a1_apply _ h1 p 0).trans ?_
  exact Cert.Gcn.multiReduction_add_row (exp s) hr hφ hacc p

/-- The vector unit's row-wise log-softmax of an array `z`, entry by entry: the row maximum taken off, then the
    logarithm of the row's sum of exponentials of the differences taken off. -/
theorem logSoftmaxOps_apply {n C : ℕ} (z : FVec Ideal (⟨2, ![n, C]⟩ : Shape) .f32)
    (hr : (⟨2, ![n, C]⟩ : Shape).Reduces [1] (⟨1, ![n]⟩ : Shape)) (hφ : FKind.Formats .f32)
    (haccM : (0xFF800000#32 : BitVec 32) = FKind.maximumf.neutral .f32 hφ)
    (haccS : (0x00000000#32 : BitVec 32) = FKind.add.neutral .f32 hφ)
    (h1 : (⟨1, ![n]⟩ : Shape).ShapeCasts ⟨2, ![n, 1]⟩) (h2 : (⟨2, ![n, 1]⟩ : Shape).Broadcasts ⟨2, ![n, C]⟩)
    (d : FVec Ideal (⟨2, ![n, C]⟩ : Shape) .f32)
    (hd : d = subf z (broadcastTo ⟨2, ![n, C]⟩
      (shapeCast ⟨2, ![n, 1]⟩ (multiReduction .maximumf [1] (⟨1, ![n]⟩ : Shape) z 0xFF800000#32 hr hφ haccM) h1) h2))
    (p : Fin n) (q : Fin C) :
    subf d (broadcastTo ⟨2, ![n, C]⟩
        (log (shapeCast ⟨2, ![n, 1]⟩ (multiReduction .add [1] (⟨1, ![n]⟩ : Shape) (exp d) 0x00000000#32 hr hφ haccS) h1
          : FVec Ideal (⟨2, ![n, 1]⟩ : Shape) .f32)) h2) (ix2 p q)
      = Cert.Gcn.logSoftmax z (ix2 p q) := by
  have hrow : ∀ k : Fin C, d (ix2 p k) = z (ix2 p k) - Cert.Gcn.rowMax z p := fun k => by
    rw [hd]
    exact congrArg (z (ix2 p k) - ·) (rowMaxCol_apply z hr hφ haccM h1 h2 p k)
  rw [Cert.Gcn.logSoftmax_apply]
  refine (subf_apply _ _ _).trans ?_
  rw [logSumExpCol_apply d hr hφ haccS h1 h2 p q, hrow q]
  exact congrArg (fun S => (z (ix2 p q) - Cert.Gcn.rowMax z p) - Ideal.log S)
    (Finset.sum_congr rfl fun k _ => by rw [hrow k])

/-- The one-row array added to every row of the block, as the kernel spells it, is the biased block. -/
theorem bias_eq (x0 : Vec Ideal S2000x40 .f32) (x1 : Vec Ideal S1x40 .f32) :
    (addf (shapeCast S2000x40 x0 shapeCasts_S2000x40_S2000x40)
        (broadcastTo S2000x40 (shapeCast S1x40 x1 shapeCasts_S1x40_S1x40) broadcasts_S1x40_S2000x40) : FVec Ideal S2000x40 .f32)
      = Cert.Gcn.biasRow (n := 2000) (C := 40) x0 x1 := by
  funext i
  obtain ⟨r, k, rfl⟩ : ∃ (r : Fin 2000) (k : Fin 40), i = ix2 r k := ⟨i 0, i 1, eq_ix2 i⟩
  rw [shapeCast_self, shapeCast_self]
  exact congrArg (x0 (ix2 r k) + ·) (broadcastTo_1b_ab_apply x1 broadcasts_S1x40_S2000x40 r k)

/-- THE PAYLOAD ON A BLOCK is the log-softmax of the biased block. -/
theorem pay_eq (x0 : Vec Ideal S2000x40 .f32) (x1 : Vec Ideal S1x40 .f32) :
    k2_pay1 (F := Ideal) x0 x1
      = Cert.Gcn.logSoftmax (n := 2000) (C := 40) (Cert.Gcn.biasRow (n := 2000) (C := 40) x0 x1) := by
  funext j
  obtain ⟨p, q, rfl⟩ : ∃ (p : Fin 2000) (q : Fin 40), j = ix2 p q := ⟨j 0, j 1, eq_ix2 j⟩
  unfold k2_pay1
  dsimp only
  rw [bias_eq x0 x1]
  exact logSoftmaxOps_apply (n := 2000) (C := 40) (Cert.Gcn.biasRow (n := 2000) (C := 40) x0 x1) _ _ _ _ _ _ _ rfl p q

/-! ## From the blocks to the array -/

theorem hz : (![0, 0] : Fin 2 → Nat) = fun _ => 0 := funext fun a => by fin_cases a <;> rfl

/-- The windows' index maps at each of the fifty points: the two row-blocked windows sit at block (t, 0), the
    one-row window at block (0, 0). -/
theorem idx_facts : ∀ t : Fin cfg2.N, t.val < 50
    ∧ win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- Every block row of the result is some point's. -/
theorem idx_onto : ∀ b : Fin 50, ∃ t : Fin cfg2.N, t.val = b.val :=
  (by decide +kernel : ∀ b : Fin 50, ∃ t : Fin grid2.N, t.val = b.val)

variable (V : (c : Dev nD) → (b : Ref sig .tc) → Buf (Elt Ideal) ((c : Thread nD τ).loc b))

/-- Row `p` of the first window's block at point `t` is row `2000 t + p` of its array. -/
theorem blk0_apply (c : Dev nD) (t : Fin cfg2.N) (p : Fin 2000) (k : Fin 40) (r : Fin 100000)
    (hr : r.val = t.val * 2000 + p.val) :
    (iblk2 V c 0 t : Vec Ideal S2000x40 .f32) (ix2 p k) = (V c main_v57 : Vec Ideal S100000x40 .f32) (ix2 r k) := by
  obtain ⟨-, e0, e1, -⟩ := idx_facts t
  unfold iblk2
  show V c main_v57 (((cfg2.win 0).blk t).view.emb (ix2 p k)) = V c main_v57 (ix2 r k)
  refine congrArg (V c main_v57) ?_
  funext a; apply Fin.ext
  match a with
  | ⟨0, _⟩ => show win2_0.index t (0 : Fin 2) * 2000 + 1 * p.val = r.val; omega
  | ⟨1, _⟩ => show win2_0.index t (1 : Fin 2) * 40 + 1 * k.val = k.val; omega

/-- The second window's block at every point is its whole one-row array. -/
theorem blk1_apply (c : Dev nD) (t : Fin cfg2.N) (u : Fin 1) (k : Fin 40) :
    (iblk2 V c 1 t : Vec Ideal S1x40 .f32) (ix2 u k) = (V c main_v58 : Vec Ideal S1x40 .f32) (ix2 u k) := by
  obtain ⟨-, -, -, e0, e1, -⟩ := idx_facts t
  unfold iblk2
  show V c main_v58 (((cfg2.win 1).blk t).view.emb (ix2 u k)) = V c main_v58 (ix2 u k)
  refine congrArg (V c main_v58) ?_
  funext a; apply Fin.ext
  match a with
  | ⟨0, _⟩ => show win2_1.index t (0 : Fin 2) * 1 + 1 * u.val = u.val; omega
  | ⟨1, _⟩ => show win2_1.index t (1 : Fin 2) * 40 + 1 * k.val = k.val; omega

/-- WHAT POINT `t` WRITES BACK is block `t` of the log-softmax of the biased array, as the region finds the two arrays. -/
theorem flushed_eq (c : Dev nD) (t : Fin cfg2.N) :
    (dat2 V c).flushed 2 t = ((cfg2.win 2).blk t).view.read (Elt Ideal)
      (Cert.Gcn.logSoftmax (n := 100000) (C := 40) (Cert.Gcn.biasRow (n := 100000) (C := 40) (V c main_v57) (V c main_v58))) := by
  show (cfg2.win 2).cut (grid2.coords t) ((dat2 V c).after 2 t) = _
  rw [after2_2]
  unfold out2_2
  rw [View.canon_unit_zero hz]
  simp only [View.ld_unit_zero (S := S2000x40) hz, View.ld_unit_zero (S := S1x40) hz]
  rw [pay_eq]
  obtain ⟨ht, -, -, -, -, e0, e1⟩ := idx_facts t
  funext j
  obtain ⟨p, q, rfl⟩ : ∃ (p : Fin 2000) (q : Fin 40), j = ix2 p q := ⟨j 0, j 1, eq_ix2 j⟩
  obtain ⟨r, hr⟩ : ∃ r : Fin 100000, r.val = t.val * 2000 + p.val :=
    ⟨⟨t.val * 2000 + p.val, by have := p.isLt; omega⟩, rfl⟩
  have hemb : ((cfg2.win 2).blk t).view.emb (ix2 p q) = (ix2 r q : S100000x40.Idx) := by
    funext a; apply Fin.ext
    match a with
    | ⟨0, _⟩ => show win2_2.index t (0 : Fin 2) * 2000 + 1 * p.val = r.val; omega
    | ⟨1, _⟩ => show win2_2.index t (1 : Fin 2) * 40 + 1 * q.val = q.val; omega
  show Cert.Gcn.logSoftmax (n := 2000) (C := 40) (Cert.Gcn.biasRow (n := 2000) (C := 40) (iblk2 V c 0 t) (iblk2 V c 1 t)) (ix2 p q)
    = Cert.Gcn.logSoftmax (n := 100000) (C := 40) (Cert.Gcn.biasRow (n := 100000) (C := 40) (V c main_v57) (V c main_v58))
        (((cfg2.win 2).blk t).view.emb (ix2 p q))
  rw [hemb]
  refine Cert.Gcn.logSoftmax_congr_row _ _ p r q fun k => ?_
  rw [Cert.Gcn.biasRow_apply, Cert.Gcn.biasRow_apply, blk0_apply V c t p k r hr, blk1_apply V c t 0 k]

/-- An index of the result array is in point `t`'s block iff each coordinate is in the block's range on its axis. -/
theorem mem_blk (t : Fin cfg2.N) (i : S100000x40.Idx) :
    i ∈ ((cfg2.win 2).blk t).view.set ↔ ∀ a : Fin 2, win2_2.index t a * S2000x40.size a ≤ (i a).val
      ∧ (i a).val < win2_2.index t a * S2000x40.size a + S2000x40.size a := by
  show i ∈ ((View.whole main_v59).slice (win2_2.rect t)).set ↔ _
  rw [View.set_slice_whole, Rect.mem_set_unit]
  exact Iff.rfl

/-- Every index of the result array is in the block of the point (row / 2000). -/
theorem cover (i : S100000x40.Idx) : ∃ t : Fin cfg2.N, (cfg2.win 2).flush t = true ∧ i ∈ ((cfg2.win 2).blk t).view.set := by
  have hi0 : (i 0).val < 100000 := (i 0).isLt
  have hi1 : (i 1).val < 40 := (i 1).isLt
  obtain ⟨t, ht⟩ := idx_onto ⟨(i 0).val / 2000, by omega⟩
  have ht' : t.val = (i 0).val / 2000 := ht
  obtain ⟨-, -, -, -, -, e0, e1⟩ := idx_facts t
  refine ⟨t, flush2_2 t, ?_⟩
  rw [mem_blk]
  intro a
  match a with
  | ⟨0, _⟩ =>
    show win2_2.index t (0 : Fin 2) * 2000 ≤ (i 0).val ∧ (i 0).val < win2_2.index t (0 : Fin 2) * 2000 + 2000
    omega
  | ⟨1, _⟩ =>
    show win2_2.index t (1 : Fin 2) * 40 ≤ (i 1).val ∧ (i 1).val < win2_2.index t (1 : Fin 2) * 40 + 40
    omega

/-- THE RESULT ARRAY after the region: the log-softmax of the one-row array added to every row of the first. -/
theorem arr_eq (c : Dev nD) :
    (dat2 V c).arrAt 2 cfg2.N = Cert.Gcn.logSoftmax (n := 100000) (C := 40)
      (Cert.Gcn.biasRow (n := 100000) (C := 40) (V c main_v57) (V c main_v58)) :=
  (dat2 V c).arrAt_eq_of_cover 2 _ (fun t _ => flushed_eq V c t) cover

end Cert.KernelIdeal.Region2

end
-- ==== Proof.Boundary.lean ====
/-
  The idealized kernel's buffers at each boundary of its run, as functions of the seven arguments.

  @main is three stretches of host operations, each followed by a region. Walking it once from the launch:
  after the opening stretch the buffers hold the edges' sources and destinations and each edge's normalised weight (the
  shared functions `srcOf`, `dstOf`, `normOf` of the index array and the weights); the first region leaves the dense
  product of the features with the first weight matrix; the second stretch passes it along the edges (`pass16`) and lays
  the first bias out as a row; the second region leaves the dense product of the rectified, biased sum with the second
  weight matrix; the third stretch passes that along the edges (`pass40`) and lays out the second bias; the third
  region leaves the row-wise log-softmax of the biased sum. A region writes only its result array, a stretch only its
  own values, so everything else is carried across unchanged.

  The stretches are read for ANY float family: what a stretch leaves is the shared functions applied to what it found,
  whatever the numbers are, with the array a region left kept as an unnamed operand. Only the three regions' own results
  are statements about the extended reals; they are put in afterwards. The last lemma is the run's result: `final` of the
  arguments.
-/
import proofs.«402597_j61950608278026_2_alg».proof.Proof.Gen.KernelIdeal.Frame
import proofs.«402597_j61950608278026_2_alg».proof.Proof.Chain
import proofs.«402597_j61950608278026_2_alg».proof.Proof.Spec
import proofs.«402597_j61950608278026_2_alg».proof.Proof.Region0
import proofs.«402597_j61950608278026_2_alg».proof.Proof.Region1
import proofs.«402597_j61950608278026_2_alg».proof.Proof.Region2
import Idealize.ShloMosaic.Lib.StableHlo.Run
import Idealize.ShloMosaic.Lib.ValueLayout
import Idealize.ShloMosaic.Lib.ValueIdx

set_option maxRecDepth 16384

noncomputable section

namespace Cert.KernelIdeal.Boundary

open Idealize.ShloMosaic Idealize.ShloMosaic.TcCoe Idealize.SL.Sem Idealize.ShloMosaic.ValueIdx
open Cert.KernelIdeal Cert.KernelIdeal.Gen Cert.KernelIdeal.Chain

/-! # The host stretches, for any float family -/

section Stretches

variable {F : FTy → Type} [FloatOps F]
variable (m : (ℓ : Loc nD τ sig) → Buf (Elt F) ℓ) (ρ : Dev nD → PrngReg) (c : Dev nD)

/-! ## The arguments as launched -/

/-- The node features. -/
abbrev argX : (⟨S100000x512, .f32⟩ : BufTy).Contents (Elt F) := m ((c : Thread nD τ).loc main_arg0)
/-- The edges' index array. -/
abbrev argE : (⟨S2x3200000, .i32⟩ : BufTy).Contents (Elt F) := m ((c : Thread nD τ).loc main_arg1)
/-- The edges' weights. -/
abbrev argW : (⟨S3200000, .f32⟩ : BufTy).Contents (Elt F) := m ((c : Thread nD τ).loc main_arg2)
/-- The first weight matrix. -/
abbrev argW1 : (⟨S512x16, .f32⟩ : BufTy).Contents (Elt F) := m ((c : Thread nD τ).loc main_arg3)
/-- The first bias. -/
abbrev argB1 : (⟨S16, .f32⟩ : BufTy).Contents (Elt F) := m ((c : Thread nD τ).loc main_arg4)
/-- The second weight matrix. -/
abbrev argW2 : (⟨S16x40, .f32⟩ : BufTy).Contents (Elt F) := m ((c : Thread nD τ).loc main_arg5)
/-- The second bias. -/
abbrev argB2 : (⟨S40, .f32⟩ : BufTy).Contents (Elt F) := m ((c : Thread nD τ).loc main_arg6)

/-! ## After the opening stretch: the first region's entry -/

theorem w3_x : W3 m ρ c (Proc.devRef .tc main_arg0) = argX m c := by
  show StableHlo.after hostOps0_2 (StableHlo.after hostOps0_1 (StableHlo.after hostOps0 (W0 m ρ c))) (Proc.devRef .tc main_arg0) = _
  dsimp only [hostOps0, hostOps0_1, hostOps0_2]
  after_results
  all_goals rfl
theorem w3_w1 : W3 m ρ c (Proc.devRef .tc main_arg3) = argW1 m c := by
  show StableHlo.after hostOps0_2 (StableHlo.after hostOps0_1 (StableHlo.after hostOps0 (W0 m ρ c))) (Proc.devRef .tc main_arg3) = _
  dsimp only [hostOps0, hostOps0_1, hostOps0_2]
  after_results
  all_goals rfl
theorem w3_b1 : W3 m ρ c (Proc.devRef .tc main_arg4) = argB1 m c := by
  show StableHlo.after hostOps0_2 (StableHlo.after hostOps0_1 (StableHlo.after hostOps0 (W0 m ρ c))) (Proc.devRef .tc main_arg4) = _
  dsimp only [hostOps0, hostOps0_1, hostOps0_2]
  after_results
  all_goals rfl
theorem w3_w2 : W3 m ρ c (Proc.devRef .tc main_arg5) = argW2 m c := by
  show StableHlo.after hostOps0_2 (StableHlo.after hostOps0_1 (StableHlo.after hostOps0 (W0 m ρ c))) (Proc.devRef .tc main_arg5) = _
  dsimp only [hostOps0, hostOps0_1, hostOps0_2]
  after_results
  all_goals rfl
theorem w3_b2 : W3 m ρ c (Proc.devRef .tc main_arg6) = argB2 m c := by
  show StableHlo.after hostOps0_2 (StableHlo.after hostOps0_1 (StableHlo.after hostOps0 (W0 m ρ c))) (Proc.devRef .tc main_arg6) = _
  dsimp only [hostOps0, hostOps0_1, hostOps0_2]
  after_results
  all_goals rfl
/-- The edges' sources. -/
theorem w3_src : W3 m ρ c (Proc.devRef .tc main_v1) = srcOf (argE m c) := by
  show StableHlo.after hostOps0_2 (StableHlo.after hostOps0_1 (StableHlo.after hostOps0 (W0 m ρ c))) (Proc.devRef .tc main_v1) = _
  dsimp only [hostOps0, hostOps0_1, hostOps0_2]
  after_results
  all_goals rfl
/-- The edges' destinations. -/
theorem w3_dst : W3 m ρ c (Proc.devRef .tc main_v3) = dstOf (argE m c) := by
  show StableHlo.after hostOps0_2 (StableHlo.after hostOps0_1 (StableHlo.after hostOps0 (W0 m ρ c))) (Proc.devRef .tc main_v3) = _
  dsimp only [hostOps0, hostOps0_1, hostOps0_2]
  after_results
  all_goals rfl
set_option maxHeartbeats 4000000 in
/-- Each edge's normalised weight. -/
theorem w3_norm : W3 m ρ c (Proc.devRef .tc main_v28) = normOf (argE m c) (argW m c) := by
  show StableHlo.after hostOps0_2 (StableHlo.after hostOps0_1 (StableHlo.after hostOps0 (W0 m ρ c))) (Proc.devRef .tc main_v28) = _
  dsimp only [hostOps0, hostOps0_1, hostOps0_2]
  after_results_simp
  all_goals rfl

/-! ## Across the first region: everything but its result as entered -/

theorem w4_src : W4 m ρ c (Proc.devRef .tc main_v1) = srcOf (argE m c) := (W4_of_ne m ρ c main_v1 (by decide)).trans (w3_src m ρ c)
theorem w4_dst : W4 m ρ c (Proc.devRef .tc main_v3) = dstOf (argE m c) := (W4_of_ne m ρ c main_v3 (by decide)).trans (w3_dst m ρ c)
theorem w4_norm : W4 m ρ c (Proc.devRef .tc main_v28) = normOf (argE m c) (argW m c) := (W4_of_ne m ρ c main_v28 (by decide)).trans (w3_norm m ρ c)
theorem w4_b1 : W4 m ρ c (Proc.devRef .tc main_arg4) = argB1 m c := (W4_of_ne m ρ c main_arg4 (by decide)).trans (w3_b1 m ρ c)
theorem w4_w2 : W4 m ρ c (Proc.devRef .tc main_arg5) = argW2 m c := (W4_of_ne m ρ c main_arg5 (by decide)).trans (w3_w2 m ρ c)
theorem w4_b2 : W4 m ρ c (Proc.devRef .tc main_arg6) = argB2 m c := (W4_of_ne m ρ c main_arg6 (by decide)).trans (w3_b2 m ρ c)

/-! ## After the second stretch: the second region's entry -/

set_option maxHeartbeats 4000000 in
/-- What the first region left, passed along the edges. -/
theorem w5_pass : W5 m ρ c (Proc.devRef .tc main_v42) = pass16 (argE m c) (argW m c) (W4 m ρ c (Proc.devRef .tc main_v29)) := by
  show StableHlo.after hostOps1 (W4 m ρ c) (Proc.devRef .tc main_v42) = _
  dsimp only [hostOps1]
  after_results_simp
  rw [w4_norm m ρ c, w4_src m ρ c, w4_dst m ρ c]
  all_goals rfl
/-- The first bias recast as a one-row array. -/
theorem w5_b1cast : W5 m ρ c (Proc.devRef .tc main_v43) = (shapeCast S1x16 (argB1 m c) shapeCasts_S16_S1x16 : S1x16.Idx → Elt F .f32) := by
  show StableHlo.after hostOps1 (W4 m ρ c) (Proc.devRef .tc main_v43) = _
  dsimp only [hostOps1]
  after_results
  rw [w4_b1 m ρ c]
  all_goals rfl
theorem w5_w2 : W5 m ρ c (Proc.devRef .tc main_arg5) = argW2 m c := by
  show StableHlo.after hostOps1 (W4 m ρ c) (Proc.devRef .tc main_arg5) = _
  dsimp only [hostOps1]
  after_results
  exact w4_w2 m ρ c
theorem w5_src : W5 m ρ c (Proc.devRef .tc main_v1) = srcOf (argE m c) := by
  show StableHlo.after hostOps1 (W4 m ρ c) (Proc.devRef .tc main_v1) = _
  dsimp only [hostOps1]
  after_results
  exact w4_src m ρ c
theorem w5_dst : W5 m ρ c (Proc.devRef .tc main_v3) = dstOf (argE m c) := by
  show StableHlo.after hostOps1 (W4 m ρ c) (Proc.devRef .tc main_v3) = _
  dsimp only [hostOps1]
  after_results
  exact w4_dst m ρ c
theorem w5_norm : W5 m ρ c (Proc.devRef .tc main_v28) = normOf (argE m c) (argW m c) := by
  show StableHlo.after hostOps1 (W4 m ρ c) (Proc.devRef .tc main_v28) = _
  dsimp only [hostOps1]
  after_results
  exact w4_norm m ρ c
theorem w5_b2 : W5 m ρ c (Proc.devRef .tc main_arg6) = argB2 m c := by
  show StableHlo.after hostOps1 (W4 m ρ c) (Proc.devRef .tc main_arg6) = _
  dsimp only [hostOps1]
  after_results
  exact w4_b2 m ρ c

/-! ## Across the second region -/

theorem w6_src : W6 m ρ c (Proc.devRef .tc main_v1) = srcOf (argE m c) := (W6_of_ne m ρ c main_v1 (by decide)).trans (w5_src m ρ c)
theorem w6_dst : W6 m ρ c (Proc.devRef .tc main_v3) = dstOf (argE m c) := (W6_of_ne m ρ c main_v3 (by decide)).trans (w5_dst m ρ c)
theorem w6_norm : W6 m ρ c (Proc.devRef .tc main_v28) = normOf (argE m c) (argW m c) := (W6_of_ne m ρ c main_v28 (by decide)).trans (w5_norm m ρ c)
theorem w6_b2 : W6 m ρ c (Proc.devRef .tc main_arg6) = argB2 m c := (W6_of_ne m ρ c main_arg6 (by decide)).trans (w5_b2 m ρ c)

/-! ## After the third stretch: the third region's entry -/

set_option maxHeartbeats 4000000 in
/-- What the second region left, passed along the edges. -/
theorem w7_pass : W7 m ρ c (Proc.devRef .tc main_v57) = pass40 (argE m c) (argW m c) (W6 m ρ c (Proc.devRef .tc main_v44)) := by
  show StableHlo.after hostOps2 (W6 m ρ c) (Proc.devRef .tc main_v57) = _
  dsimp only [hostOps2]
  after_results_simp
  rw [w6_norm m ρ c, w6_src m ρ c, w6_dst m ρ c]
  all_goals rfl
/-- The second bias recast as a one-row array. -/
theorem w7_b2cast : W7 m ρ c (Proc.devRef .tc main_v58) = (shapeCast S1x40 (argB2 m c) shapeCasts_S40_S1x40 : S1x40.Idx → Elt F .f32) := by
  show StableHlo.after hostOps2 (W6 m ρ c) (Proc.devRef .tc main_v58) = _
  dsimp only [hostOps2]
  after_results
  rw [w6_b2 m ρ c]
  all_goals rfl

end Stretches

/-! # The regions' results, on the extended reals -/

section Regions

variable (m : (ℓ : Loc nD τ sig) → Buf (Elt Ideal) ℓ) (ρ : Dev nD → PrngReg) (c : Dev nD)

/-- A vector recast as a one-row array is the vector laid out as a row. -/
theorem cast16_eq_rowOf (v : (⟨S16, .f32⟩ : BufTy).Contents (Elt Ideal)) :
    (shapeCast S1x16 v shapeCasts_S16_S1x16 : S1x16.Idx → EReal) = Cert.Gcn.rowOf (C := 16) v := by
  refine funext fun j => ?_
  obtain ⟨u, q, rfl⟩ : ∃ (u : Fin 1) (q : Fin 16), j = ix2 u q := ⟨j 0, j 1, eq_ix2 j⟩
  exact shapeCast_a_1a_apply _ _ u q
theorem cast40_eq_rowOf (v : (⟨S40, .f32⟩ : BufTy).Contents (Elt Ideal)) :
    (shapeCast S1x40 v shapeCasts_S40_S1x40 : S1x40.Idx → EReal) = Cert.Gcn.rowOf (C := 40) v := by
  refine funext fun j => ?_
  obtain ⟨u, q, rfl⟩ : ∃ (u : Fin 1) (q : Fin 40), j = ix2 u q := ⟨j 0, j 1, eq_ix2 j⟩
  exact shapeCast_a_1a_apply _ _ u q

/-- The first region leaves the dense product of the features with the first weight matrix. -/
theorem w4_xw1 : W4 m ρ c (Proc.devRef .tc main_v29) = (Cert.Gcn.dense (n := 100000) (K := 512) (C := 16) (argX m c) (argW1 m c)) := by
  refine (W4_arr m ρ c 2).trans ((Cert.KernelIdeal.Region0.arr_eq (V3 m ρ) c).trans ?_)
  show Cert.Gcn.dense (n := 100000) (K := 512) (C := 16) (W3 m ρ c (Proc.devRef .tc main_arg0)) (W3 m ρ c (Proc.devRef .tc main_arg3)) = _
  rw [w3_x m ρ c, w3_w1 m ρ c]

/-- The first layer's products passed along the edges. -/
theorem w5_agg : W5 m ρ c (Proc.devRef .tc main_v42) = (pass16 (argE m c) (argW m c) (Cert.Gcn.dense (n := 100000) (K := 512) (C := 16) (argX m c) (argW1 m c))) :=
  (w5_pass m ρ c).trans (congrArg (pass16 (argE m c) (argW m c)) (w4_xw1 m ρ c))
/-- The first bias laid out as a row. -/
theorem w5_b1 : W5 m ρ c (Proc.devRef .tc main_v43) = Cert.Gcn.rowOf (C := 16) (argB1 m c) :=
  (w5_b1cast m ρ c).trans (cast16_eq_rowOf (argB1 m c))

/-- The second region leaves the dense product of the rectified, biased sum with the second weight matrix. -/
theorem w6_xw2 : W6 m ρ c (Proc.devRef .tc main_v44) = (Cert.Gcn.dense (n := 100000) (K := 16) (C := 40)
      (Cert.Gcn.relu (Cert.Gcn.biasRow (n := 100000) (C := 16) (pass16 (argE m c) (argW m c) (Cert.Gcn.dense (n := 100000) (K := 512) (C := 16) (argX m c) (argW1 m c))) (Cert.Gcn.rowOf (C := 16) (argB1 m c)))) (argW2 m c)) := by
  refine (W6_arr m ρ c 3).trans ((Cert.KernelIdeal.Region1.arr_eq (V5 m ρ) c).trans ?_)
  show Cert.Gcn.dense (n := 100000) (K := 16) (C := 40)
    (Cert.Gcn.relu (Cert.Gcn.biasRow (n := 100000) (C := 16) (W5 m ρ c (Proc.devRef .tc main_v42)) (W5 m ρ c (Proc.devRef .tc main_v43))))
    (W5 m ρ c (Proc.devRef .tc main_arg5)) = _
  rw [w5_agg m ρ c, w5_b1 m ρ c, w5_w2 m ρ c]

/-- The second layer's products passed along the edges. -/
theorem w7_agg : W7 m ρ c (Proc.devRef .tc main_v57) = (pass40 (argE m c) (argW m c) (Cert.Gcn.dense (n := 100000) (K := 16) (C := 40)
      (Cert.Gcn.relu (Cert.Gcn.biasRow (n := 100000) (C := 16) (pass16 (argE m c) (argW m c) (Cert.Gcn.dense (n := 100000) (K := 512) (C := 16) (argX m c) (argW1 m c))) (Cert.Gcn.rowOf (C := 16) (argB1 m c)))) (argW2 m c))) :=
  (w7_pass m ρ c).trans (congrArg (pass40 (argE m c) (argW m c)) (w6_xw2 m ρ c))
/-- The second bias laid out as a row. -/
theorem w7_b2 : W7 m ρ c (Proc.devRef .tc main_v58) = Cert.Gcn.rowOf (C := 40) (argB2 m c) :=
  (w7_b2cast m ρ c).trans (cast40_eq_rowOf (argB2 m c))

/-- The result array ends at the whole network's function of the arguments. -/
theorem result : W8 m ρ c (Proc.devRef .tc main_v59)
    = final (argX m c) (argE m c) (argW m c) (argW1 m c) (argB1 m c) (argW2 m c) (argB2 m c) := by
  refine (W8_arr m ρ c 2).trans ((Cert.KernelIdeal.Region2.arr_eq (V7 m ρ) c).trans ?_)
  show Cert.Gcn.logSoftmax (n := 100000) (C := 40)
    (Cert.Gcn.biasRow (n := 100000) (C := 40) (W7 m ρ c (Proc.devRef .tc main_v57)) (W7 m ρ c (Proc.devRef .tc main_v58))) = _
  rw [w7_agg m ρ c, w7_b2 m ρ c]
  rfl

end Regions

end Cert.KernelIdeal.Boundary

end
-- ==== Proof.RefStages.lean ====
/-
  The reference program computes the two-layer graph convolution with its row-wise log-softmax.

  Read one operation at a time, the reference is five stretches. Three of them are dense arithmetic and are read at an
  index: the first product x · W1; the rectified, biased first layer times W2; and the bias followed by the log-softmax,
  whose row maximum is a fold from the word of −∞ and whose row sum starts from the word of 0.0. The other two are the
  rounds of message passing (gather along the edges, scale by the normalised weights, sum back into the nodes): they
  are the same operations applied to the same operands as the shared functions of the chain, so they are identified
  whole and never opened.
-/
import proofs.«402597_j61950608278026_2_alg».proof.Proof.RefRead
import proofs.«402597_j61950608278026_2_alg».proof.Proof.Chain
import proofs.«402597_j61950608278026_2_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.ReferenceIdeal.Stages

open Idealize.ShloMosaic Idealize.ShloMosaic.TcCoe Idealize.SL.Sem Idealize.ShloMosaic.ValueIdx
open Cert.ReferenceIdeal Cert.ReferenceIdeal.Gen Cert.ReferenceIdeal.Read
open Cert.KernelIdeal.Chain (srcOf dstOf wrapCol rawCol degOf invSqrtDeg normOf pass16 pass40)

/-! ## The shared graph text: the edge ends, the degrees, the normalised weights, one round of message passing -/

section Shared

variable {F : FTy → Type} [FloatOps F]
variable (x0 : (⟨S100000x512, .f32⟩ : BufTy).Contents (Elt F)) (x1 : (⟨S2x3200000, .i32⟩ : BufTy).Contents (Elt F))
  (x2 : (⟨S3200000, .f32⟩ : BufTy).Contents (Elt F)) (x3 : (⟨S512x16, .f32⟩ : BufTy).Contents (Elt F))
  (x4 : (⟨S16, .f32⟩ : BufTy).Contents (Elt F)) (x5 : (⟨S16x40, .f32⟩ : BufTy).Contents (Elt F))

/-- Row 0 of the index array, as a vector: the edges' sources. -/
theorem src_eq : val_main_v1 (F := F) x1 = srcOf x1 := by
  unfold val_main_v1 val_main_v0 srcOf
  rfl

/-- Row 1 of the index array, as a vector: the edges' destinations. -/
theorem dst_eq : val_main_v3 (F := F) x1 = dstOf x1 := by
  unfold val_main_v3 val_main_v2 dstOf
  rfl

/-- The sources with a negative index wrapped by the node count, as a column (its first use). -/
theorem wrapSrc_a : val_main_v18 (F := F) x1 = wrapCol (srcOf x1) := by
  unfold val_main_v18 val_main_v17 val_main_v14 val_main_v16 val_main_v13 val_main_v15 val_main_c val_main_c_3 wrapCol
  rewrite [src_eq]
  rfl

/-- The destinations wrapped the same way, as a column. -/
theorem wrapDst : val_main_v26 (F := F) x1 = wrapCol (dstOf x1) := by
  unfold val_main_v26 val_main_v25 val_main_v22 val_main_v24 val_main_v21 val_main_v23 val_main_c_4 val_main_c_5 wrapCol
  rewrite [dst_eq]
  rfl

/-- The wrapped sources again, where the first round gathers its rows. -/
theorem wrapSrc_b : val_main_v36 (F := F) x1 = wrapCol (srcOf x1) := by
  unfold val_main_v36 val_main_v35 val_main_v32 val_main_v34 val_main_v31 val_main_v33 val_main_c_6 val_main_c_7 wrapCol
  rewrite [src_eq]
  rfl

/-- And once more, where the second round gathers its rows. -/
theorem wrapSrc_c : val_main_v54 (F := F) x1 = wrapCol (srcOf x1) := by
  unfold val_main_v54 val_main_v53 val_main_v50 val_main_v52 val_main_v49 val_main_v51 val_main_c_9 val_main_c_10 wrapCol
  rewrite [src_eq]
  rfl

/-- Each node's weighted in-degree: the edge weights summed at the destinations. -/
theorem deg_eq : val_main_v6 (F := F) x1 x2 = degOf x1 x2 := by
  unfold val_main_v6 val_main_v4 val_main_cst val_main_v5 degOf rawCol
  rewrite [dst_eq]
  rfl

/-- d^(-1/2) where the degree is positive, 0.0 elsewhere. -/
theorem invSqrtDeg_eq : val_main_v12 (F := F) x1 x2 = invSqrtDeg x1 x2 := by
  unfold val_main_v12 val_main_v8 val_main_v11 val_main_v10 val_main_call0_v1 val_main_call0_v0 val_main_cst_2
    val_main_v7 val_main_cst_0 val_main_v9 val_main_cst_1 invSqrtDeg
  rewrite [deg_eq]
  rfl

/-- Each edge's normalised weight d(src)^(-1/2) · weight · d(dst)^(-1/2). -/
theorem norm_eq : val_main_v28 (F := F) x1 x2 = normOf x1 x2 := by
  unfold val_main_v28 val_main_v20 val_main_v19 val_main_v27 normOf
  rewrite [invSqrtDeg_eq, wrapSrc_a, wrapDst]
  rfl

/-- The first round of message passing, applied to the first product: the 16-wide rows at the sources, scaled by the
    normalised weights, summed at the destinations. The product itself stays closed. -/
theorem v42_eq : val_main_v42 (F := F) x0 x1 x2 x3 = pass16 x1 x2 (val_main_v29 (F := F) x0 x3) := by
  unfold val_main_v42 val_main_v39 val_main_v37
  generalize val_main_v29 (F := F) x0 x3 = t
  unfold val_main_v40 val_main_cst_8 val_main_v41 val_main_v38 val_main_v30 pass16 rawCol
  rewrite [dst_eq, norm_eq, wrapSrc_b]
  rfl

/-- The second round, applied to the second product: the 40-wide rows. The product itself stays closed. -/
theorem v60_eq : val_main_v60 (F := F) x0 x1 x2 x3 x4 x5 = pass40 x1 x2 (val_main_v47 (F := F) x0 x1 x2 x3 x4 x5) := by
  unfold val_main_v60 val_main_v57 val_main_v55
  generalize val_main_v47 (F := F) x0 x1 x2 x3 x4 x5 = t
  unfold val_main_v58 val_main_cst_11 val_main_v59 val_main_v56 val_main_v48 pass40 rawCol
  rewrite [dst_eq, norm_eq, wrapSrc_c]
  rfl

end Shared

/-! ## The dense arithmetic, read at an index -/

section Dense

variable (x0 : (⟨S100000x512, .f32⟩ : BufTy).Contents (Elt Ideal)) (x1 : (⟨S2x3200000, .i32⟩ : BufTy).Contents (Elt Ideal))
  (x2 : (⟨S3200000, .f32⟩ : BufTy).Contents (Elt Ideal)) (x3 : (⟨S512x16, .f32⟩ : BufTy).Contents (Elt Ideal))
  (x4 : (⟨S16, .f32⟩ : BufTy).Contents (Elt Ideal)) (x5 : (⟨S16x40, .f32⟩ : BufTy).Contents (Elt Ideal))
  (x6 : (⟨S40, .f32⟩ : BufTy).Contents (Elt Ideal))

/-- The first product: entry (r, q) is the sum over k of x(r, k) · W1(k, q). -/
theorem v29_eq : val_main_v29 (F := Ideal) x0 x3 = Cert.Gcn.dense (n := 100000) (K := 512) (C := 16) x0 x3 := by
  funext i
  obtain ⟨r, q, rfl⟩ : ∃ (r : Fin 100000) (q : Fin 16), i = ix2 r q := ⟨i 0, i 1, eq_ix2 i⟩
  rewrite [val_main_v29_apply, Cert.Gcn.dense_apply]
  refine Finset.sum_congr rfl fun k _ => ?_
  have el : lidx_main_v29 (ix2 r q) k = ix2 r k :=
    funext fun a => Fin.ext (by match a with | ⟨0, _⟩ => rfl | ⟨1, _⟩ => rfl)
  have er : ridx_main_v29 (ix2 r q) k = ix2 k q :=
    funext fun a => Fin.ext (by match a with | ⟨0, _⟩ => rfl | ⟨1, _⟩ => rfl)
  rw [el, er]

/-- The first layer's activation at (r, k): the propagated product plus the bias at k, rectified against the word of 0.0.
    The bias vector reaches every row through a one-row array. -/
theorem v46_at (r : Fin 100000) (k : Fin 16) :
    val_main_v46 (F := Ideal) x0 x1 x2 x3 x4 (ix2 r k)
      = Cert.Gcn.relu (Cert.Gcn.biasRow (n := 100000) (C := 16) (val_main_v42 (F := Ideal) x0 x1 x2 x3)
          (Cert.Gcn.rowOf (C := 16) x4)) (ix2 r k) := by
  have e : idx_main_v43 (idx_main_v44 (ix2 r k)) = ix1 k :=
    funext fun a => Fin.ext (by match a with | ⟨0, _⟩ => rfl)
  rewrite [val_main_v46_apply, val_main_v45_apply, val_main_call1_v0_apply, val_main_call1_cst_apply, val_main_v44_apply,
    val_main_v43_apply, e, Cert.Gcn.relu_apply, Cert.Gcn.biasRow_apply, Cert.Gcn.rowOf_apply]
  rfl

/-- The second product: the first layer's activation times W2. -/
theorem v47_eq :
    val_main_v47 (F := Ideal) x0 x1 x2 x3 x4 x5
      = Cert.Gcn.dense (n := 100000) (K := 16) (C := 40)
          (Cert.Gcn.relu (Cert.Gcn.biasRow (n := 100000) (C := 16) (val_main_v42 (F := Ideal) x0 x1 x2 x3)
            (Cert.Gcn.rowOf (C := 16) x4))) x5 := by
  funext i
  obtain ⟨r, q, rfl⟩ : ∃ (r : Fin 100000) (q : Fin 40), i = ix2 r q := ⟨i 0, i 1, eq_ix2 i⟩
  rewrite [val_main_v47_apply, Cert.Gcn.dense_apply]
  refine Finset.sum_congr rfl fun k _ => ?_
  have el : lidx_main_v47 (ix2 r q) k = ix2 r k :=
    funext fun a => Fin.ext (by match a with | ⟨0, _⟩ => rfl | ⟨1, _⟩ => rfl)
  have er : ridx_main_v47 (ix2 r q) k = ix2 k q :=
    funext fun a => Fin.ext (by match a with | ⟨0, _⟩ => rfl | ⟨1, _⟩ => rfl)
  rw [el, er, v46_at]

/-- The second layer before the log-softmax: the propagated product plus the bias row. -/
theorem v63_eq :
    val_main_v63 (F := Ideal) x0 x1 x2 x3 x4 x5 x6
      = Cert.Gcn.biasRow (n := 100000) (C := 40) (val_main_v60 (F := Ideal) x0 x1 x2 x3 x4 x5)
          (Cert.Gcn.rowOf (C := 40) x6) := by
  funext i
  obtain ⟨r, q, rfl⟩ : ∃ (r : Fin 100000) (q : Fin 40), i = ix2 r q := ⟨i 0, i 1, eq_ix2 i⟩
  have e : idx_main_v61 (idx_main_v62 (ix2 r q)) = ix1 q :=
    funext fun a => Fin.ext (by match a with | ⟨0, _⟩ => rfl)
  rewrite [val_main_v63_apply, val_main_v62_apply, val_main_v61_apply, e, Cert.Gcn.biasRow_apply, Cert.Gcn.rowOf_apply]
  rfl

/-! ### The log-softmax of an array z standing for the second layer -/

variable (z : (⟨S100000x40, .f32⟩ : BufTy).Contents (Elt Ideal))

/-- Row r's maximum: the fold of the maximum along the row from the word of −∞, and one more maximum with that word,
    which changes nothing. -/
theorem max_at (hz : val_main_v63 (F := Ideal) x0 x1 x2 x3 x4 x5 x6 = z) (r : Fin 100000) :
    val_main_call2_v2 (F := Ideal) x0 x1 x2 x3 x4 x5 x6 (ix1 r) = Cert.Gcn.rowMax (n := 100000) (C := 40) z r := by
  rewrite [val_main_call2_v2_apply, val_main_call2_v1_apply, val_main_call2_cst_0_apply]
  unfold val_main_call2_v0 val_main_call2_cst
  rewrite [hz]
  have h := Cert.Gcn.hostReduce_max_row (n := 100000) (C := 40) z reducesTo_S100000x40_S100000_d1 (by decide) h_S_ r
  exact (congrArg (fun y : EReal => max (Ideal.ofBits .f32 0xFF800000#32) y) h).trans (Cert.Gcn.max_negInfWord _)

/-- Entry (r, k) minus its row's maximum. -/
theorem shifted_at (hz : val_main_v63 (F := Ideal) x0 x1 x2 x3 x4 x5 x6 = z) (r : Fin 100000) (k : Fin 40) :
    val_main_call2_v5 (F := Ideal) x0 x1 x2 x3 x4 x5 x6 (ix2 r k)
      = z (ix2 r k) - Cert.Gcn.rowMax (n := 100000) (C := 40) z r := by
  have e : idx_main_call2_v3 (idx_main_call2_v4 (ix2 r k)) = ix1 r :=
    funext fun a => Fin.ext (by match a with | ⟨0, _⟩ => rfl)
  rewrite [val_main_call2_v5_apply, val_main_call2_v4_apply, val_main_call2_v3_apply, e,
    max_at x0 x1 x2 x3 x4 x5 x6 z hz r, hz]
  rfl

/-- Row r's sum of the exponentials of those differences; the sum starts from the word of 0.0, which is 0. -/
theorem sum_at (hz : val_main_v63 (F := Ideal) x0 x1 x2 x3 x4 x5 x6 = z) (r : Fin 100000) :
    val_main_call2_v7 (F := Ideal) x0 x1 x2 x3 x4 x5 x6 (ix1 r)
      = ∑ k : Fin 40, Ideal.exp (z (ix2 r k) - Cert.Gcn.rowMax (n := 100000) (C := 40) z r) := by
  have h0 : (FloatOps.ofBits (F := Ideal) .f32 0x00000000#32 : EReal) = 0 := Ideal.ofBits_zero_f32
  rewrite [val_main_call2_v7_apply, val_main_call2_cst_1_apply, h0, zero_add]
  refine Finset.sum_congr rfl fun k _ => ?_
  have e : idx_main_call2_v7 (ix1 r) k = ix2 r k :=
    funext fun a => Fin.ext (by match a with | ⟨0, _⟩ => rfl | ⟨1, _⟩ => rfl)
  rewrite [e, val_main_call2_v6_apply, shifted_at x0 x1 x2 x3 x4 x5 x6 z hz r k]
  rfl

/-- The log-softmax at (r, q): the shifted entry minus the logarithm of the row's sum. -/
theorem logSoftmax_at (hz : val_main_v63 (F := Ideal) x0 x1 x2 x3 x4 x5 x6 = z) (r : Fin 100000) (q : Fin 40) :
    val_main_v64 (F := Ideal) x0 x1 x2 x3 x4 x5 x6 (ix2 r q) = Cert.Gcn.logSoftmax (n := 100000) (C := 40) z (ix2 r q) := by
  have e : idx_main_call2_v8 (idx_main_call2_v10 (ix2 r q)) = ix1 r :=
    funext fun a => Fin.ext (by match a with | ⟨0, _⟩ => rfl)
  rewrite [val_main_v64_apply, val_main_call2_v10_apply, val_main_call2_v9_apply, val_main_call2_v8_apply, e,
    sum_at x0 x1 x2 x3 x4 x5 x6 z hz r, shifted_at x0 x1 x2 x3 x4 x5 x6 z hz r q, Cert.Gcn.logSoftmax_apply]
  rfl

/-- The last stretch: the log-softmax of the biased second layer. -/
theorem v64_eq :
    val_main_v64 (F := Ideal) x0 x1 x2 x3 x4 x5 x6
      = Cert.Gcn.logSoftmax (n := 100000) (C := 40)
          (Cert.Gcn.biasRow (n := 100000) (C := 40) (val_main_v60 (F := Ideal) x0 x1 x2 x3 x4 x5)
            (Cert.Gcn.rowOf (C := 40) x6)) := by
  funext i
  obtain ⟨r, q, rfl⟩ : ∃ (r : Fin 100000) (q : Fin 40), i = ix2 r q := ⟨i 0, i 1, eq_ix2 i⟩
  exact logSoftmax_at x0 x1 x2 x3 x4 x5 x6 _ (v63_eq x0 x1 x2 x3 x4 x5 x6) r q

end Dense

/-! ## The whole reference -/

/-- The reference's result is the network of the chain: the five stretches in turn. -/
theorem result_eq (x0 : (⟨S100000x512, .f32⟩ : BufTy).Contents (Elt Ideal)) (x1 : (⟨S2x3200000, .i32⟩ : BufTy).Contents (Elt Ideal))
    (x2 : (⟨S3200000, .f32⟩ : BufTy).Contents (Elt Ideal)) (x3 : (⟨S512x16, .f32⟩ : BufTy).Contents (Elt Ideal))
    (x4 : (⟨S16, .f32⟩ : BufTy).Contents (Elt Ideal)) (x5 : (⟨S16x40, .f32⟩ : BufTy).Contents (Elt Ideal))
    (x6 : (⟨S40, .f32⟩ : BufTy).Contents (Elt Ideal)) :
    Cert.ReferenceIdeal.Read.val_main_v64 (F := Ideal) x0 x1 x2 x3 x4 x5 x6
      = Cert.KernelIdeal.Chain.final x0 x1 x2 x3 x4 x5 x6 := by
  rewrite [v64_eq, v60_eq, v47_eq, v42_eq, v29_eq]
  rfl

end Cert.ReferenceIdeal.Stages

end
-- ==== Proof.lean ====
/-
  A two-layer graph convolution with a row-wise log-softmax: the kernel computes what the reference computes, on the
  extended reals.

  Both programs spell the irregular part the same way: the in-degrees, the symmetric normalisation, the gathers along
  the edges and the scatter-adds at the destinations are the same host operations on both sides, and the proof never opens
  them (Proof/Chain.lean names them once). They differ in the three dense stages: the kernel computes x·W1, then
  relu(s + b1)·W2, then the log-softmax of s + b2, each on blocks of 2000 rows through its own region, where the reference
  applies one matrix product, one rectifier, one log-softmax to the whole arrays. Each of these reads row r of its result
  from row r of its operand only, so a block of rows of the result is the same function of the block of rows
  (Proof/Spec.lean), and the blocks tile the array (Proof/Region0.lean, Region1.lean, Region2.lean). A matrix product
  accumulated into zeros is the plain sum of products; a format change is the identity on the extended reals; the
  reference's extra maximum with −∞ in front of its row maximum is the identity. No law of arithmetic beyond 0 + x = x
  is used, so the inputs' finiteness is never opened.

  The kernel's run with its result named is the frame's launch again (Proof/RunValue.lean); its buffers are walked from the
  launch to the result in Proof/Boundary.lean; the reference's run (Proof/RefRun.lean) is read stage by stage
  (Proof/RefRead.lean) as the same functions in Proof/RefStages.lean; both results are `Chain.final` of the arguments.
-/
import proofs.«402597_j61950608278026_2_alg».proof.Defs
import proofs.«402597_j61950608278026_2_alg».proof.Proof.Gen.Kernel
import proofs.«402597_j61950608278026_2_alg».proof.Proof.Gen.Kernel.Skeleton
import proofs.«402597_j61950608278026_2_alg».proof.Proof.Gen.Kernel.Launch
import proofs.«402597_j61950608278026_2_alg».proof.Proof.Gen.Kernel.Points
import proofs.«402597_j61950608278026_2_alg».proof.Proof.Gen.Kernel.Frame
import proofs.«402597_j61950608278026_2_alg».proof.Proof.Gen.KernelIdeal
import proofs.«402597_j61950608278026_2_alg».proof.Proof.Gen.KernelIdeal.Skeleton
import proofs.«402597_j61950608278026_2_alg».proof.Proof.Gen.KernelIdeal.Launch
import proofs.«402597_j61950608278026_2_alg».proof.Proof.Gen.KernelIdeal.Points
import proofs.«402597_j61950608278026_2_alg».proof.Proof.Gen.KernelIdeal.Frame
import proofs.«402597_j61950608278026_2_alg».proof.Proof.Gen.ReferenceIdeal
import proofs.«402597_j61950608278026_2_alg».proof.Proof.RefRun
import proofs.«402597_j61950608278026_2_alg».proof.Proof.RefRead
import proofs.«402597_j61950608278026_2_alg».proof.Proof.Gen.Pre_finite_inputs
import proofs.«402597_j61950608278026_2_alg».proof.Proof.RunValue
import proofs.«402597_j61950608278026_2_alg».proof.Proof.Boundary
import proofs.«402597_j61950608278026_2_alg».proof.Proof.RefStages
import Idealize.ShloMosaic.Adequacy
import Idealize.ShloMosaic.Init

noncomputable section

namespace Cert.Proof

open Idealize.ShloMosaic Idealize.ShloMosaic.TcCoe Idealize.SL.Sem

/-- The kernel as printed runs and keeps its arguments. -/
theorem frame_k : Cert.frame_Kernel := fun m ρ _ => Cert.Kernel.Gen.frame m ρ

/-- The idealized kernel runs and keeps its arguments. -/
theorem frame_ki : Cert.frame_KernelIdeal := fun m ρ _ => Cert.KernelIdeal.Gen.frame m ρ

/-- The idealized reference runs and keeps its arguments: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- From memories agreeing on the arguments both runs end with the whole network's function of the arguments. -/
theorem algebraic : Cert.algebraic_KernelIdeal_ReferenceIdeal := by
  intro m ρ m' ρ' _ hagree
  refine ⟨fun c => Cert.KernelIdeal.Gen.W8 m ρ c (Proc.devRef .tc Cert.KernelIdeal.main_v59),
    Cert.KernelIdeal.RunValue.run (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v64_eq, Cert.ReferenceIdeal.Stages.result_eq,
    (hagree c).1, (hagree c).2.1, (hagree c).2.2.1, (hagree c).2.2.2.1, (hagree c).2.2.2.2.1, (hagree c).2.2.2.2.2.1,
    (hagree c).2.2.2.2.2.2]
  exact (Cert.KernelIdeal.Boundary.result m ρ c).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
